-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S100000x64 : Shape := ⟨2, ![100000, 64]⟩
abbrev S200000x4 : Shape := ⟨2, ![200000, 4]⟩
abbrev S1500000 : Shape := ⟨1, ![1500000]⟩
abbrev S70x64 : Shape := ⟨2, ![70, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S200000x4 : S_.BroadcastsInDim S200000x4 (![] : Fin 0 → Fin S200000x4.rank)
  reducesTo_S200000x4_S_d0_1 : S200000x4.ReducesTo [0, 1] S_
  bcast_S_S70x64 : S_.BroadcastsInDim S70x64 (![] : Fin 0 → Fin S70x64.rank)
  reducesTo_S70x64_S_d0_1 : S70x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S64 .f32) (main_arg10 : FVec F S64x64 .f32) (main_arg11 : FVec F S64 .f32) (main_arg12 : FVec F S64x1 .f32) (main_arg13 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg13 main_v48 main_v49 main_v50

def fn_part1 {F : FTy → Type} [FloatOps F] (main_arg6 : FVec F S70x64 .f32) (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) (main_v13 : IVec S_ 1) (main_v16 : IVec S200000x4 1) : IVec S_ 1 :=
  let main_c_5 : IVec S_ 1 := constantI S_ 1 1#1
  let main_v17 : IVec S_ 1 := (fun x v => Host.reduce IntOp.andi x v reducesTo_S200000x4_S_d0_1 h_S_) main_v16 main_c_5
  let main_v18 : IVec S_ 1 := andi main_v13 main_v17
  let main_v19 : FVec F S70x64 .f32 := Host.absf main_arg6
  let main_cst_6 : FVec F S_ .f32 := constant S_ .f32 0x7F800000#32
  let main_v20 : FVec F S70x64 .f32 := broadcastInDim S70x64 ![] bcast_S_S70x64 main_cst_6
  let main_v21 : IVec S70x64 1 := cmpf .olt main_v19 main_v20
  let main_c_7 : IVec S_ 1 := constantI S_ 1 1#1
  let main_v22 : IVec S_ 1 := (fun x v => Host.reduce IntOp.andi x v reducesTo_S70x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x4 .f32) (main_arg1 : FVec F S100000x64 .f32) (main_arg2 : FVec F S100000x4 .f32) (main_arg3 : FVec F S200000x4 .f32) (main_arg4 : IVec S1500000 32) (main_arg5 : IVec S1500000 32) (main_arg6 : FVec F S70x64 .f32) (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x4 .f32 := Host.absf main_arg2
  let main_cst_2 : FVec F S_ .f32 := constant S_ .f32 0x7F800000#32
  let main_v10 : FVec F S100000x4 .f32 := broadcastInDim S100000x4 ![] bcast_S_S100000x4 main_cst_2
  let main_v11 : IVec S100000x4 1 := cmpf .olt main_v9 main_v10
  let main_c_3 : IVec S_ 1 := constantI S_ 1 1#1
  let main_v12 : IVec S_ 1 := (fun x v => Host.reduce IntOp.andi x v reducesTo_S100000x4_S_d0_1 h_S_) main_v11 main_c_3
  let main_v13 : IVec S_ 1 := andi main_v8 main_v12
  let main_v14 : FVec F S200000x4 .f32 := Host.absf main_arg3
  let main_cst_4 : FVec F S_ .f32 := constant S_ .f32 0x7F800000#32
  let main_v15 : FVec F S200000x4 .f32 := broadcastInDim S200000x4 ![] bcast_S_S200000x4 main_cst_4
  let main_v16 : IVec S200000x4 1 := cmpf .olt main_v14 main_v15
  fn_part1 (F := F) main_arg6 main_arg7 main_arg8 main_arg9 main_arg10 main_arg11 main_arg12 main_arg13 main_v13 main_v16
-- ==== Kernel.lean ====
abbrev S100000x4 : Shape := ⟨2, ![100000, 4]⟩
abbrev S100000x64 : Shape := ⟨2, ![100000, 64]⟩
abbrev S200000x4 : Shape := ⟨2, ![200000, 4]⟩
abbrev S1500000 : Shape := ⟨1, ![1500000]⟩
abbrev S70x64 : Shape := ⟨2, ![70, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000x3 : Shape := ⟨2, ![100000, 3]⟩
abbrev S200000x3 : Shape := ⟨2, ![200000, 3]⟩
abbrev S_ : Shape := ⟨0, ![]⟩
abbrev S1500000x1 : Shape := ⟨2, ![1500000, 1]⟩
abbrev S1500000x64 : Shape := ⟨2, ![1500000, 64]⟩
abbrev S1500000x3 : Shape := ⟨2, ![1500000, 3]⟩
abbrev S1503232x64 : Shape := ⟨2, ![1503232, 64]⟩
abbrev S1503232x3 : Shape := ⟨2, ![1503232, 3]⟩
abbrev S1503232 : Shape := ⟨1, ![1503232]⟩
abbrev S3x64 : Shape := ⟨2, ![3, 64]⟩
abbrev S1x64 : Shape := ⟨2, ![1, 64]⟩
abbrev S1x1 : Shape := ⟨2, ![1, 1]⟩
abbrev S1503232x1 : Shape := ⟨2, ![1503232, 1]⟩
abbrev S4096x64 : Shape := ⟨2, ![4096, 64]⟩
abbrev S4096x3 : Shape := ⟨2, ![4096, 3]⟩
abbrev S4096x1 : Shape := ⟨2, ![4096, 1]⟩
abbrev S200001 : Shape := ⟨1, ![200001]⟩
abbrev S200000 : Shape := ⟨1, ![200000]⟩

abbrev nBuf : Space → Nat
  | .hbm => 98
  | .vmem => 18
  | .smem => 0
  | _ => 0

abbrev bufTy : (tb : Table) → Fin (tcTables nBuf tb) → BufTy
  | .hbm, ⟨0, _⟩ => ⟨S100000x4, .f32⟩
  | .hbm, ⟨1, _⟩ => ⟨S100000x64, .f32⟩
  | .hbm, ⟨2, _⟩ => ⟨S100000x4, .f32⟩
  | .hbm, ⟨3, _⟩ => ⟨S200000x4, .f32⟩
  | .hbm, ⟨4, _⟩ => ⟨S1500000, .i32⟩
  | .hbm, ⟨5, _⟩ => ⟨S1500000, .i32⟩
  | .hbm, ⟨6, _⟩ => ⟨S70x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S100000x3, .f32⟩
  | .hbm, ⟨15, _⟩ => ⟨S200000x3, .f32⟩
  | .hbm, ⟨16, _⟩ => ⟨S100000x3, .f32⟩
  | .hbm, ⟨17, _⟩ => ⟨S_, .i32⟩
  | .hbm, ⟨18, _⟩ => ⟨S1500000, .i32⟩
  | .hbm, ⟨19, _⟩ => ⟨S1500000, .i1⟩
  | .hbm, ⟨20, _⟩ => ⟨S_, .i32⟩
  | .hbm, ⟨21, _⟩ => ⟨S1500000, .i32⟩
  | .hbm, ⟨22, _⟩ => ⟨S1500000, .i32⟩
  | .hbm, ⟨23, _⟩ => ⟨S1500000, .i32⟩
  | .hbm, ⟨24, _⟩ => ⟨S1500000x1, .i32⟩
  | .hbm, ⟨25, _⟩ => ⟨S1500000x64, .f32⟩
  | .hbm, ⟨26, _⟩ => ⟨S_, .i32⟩
  | .hbm, ⟨27, _⟩ => ⟨S1500000, .i32⟩
  | .hbm, ⟨28, _⟩ => ⟨S1500000, .i1⟩
  | .hbm, ⟨29, _⟩ => ⟨S_, .i32⟩
  | .hbm, ⟨30, _⟩ => ⟨S1500000, .i32⟩
  | .hbm, ⟨31, _⟩ => ⟨S1500000, .i32⟩
  | .hbm, ⟨32, _⟩ => ⟨S1500000, .i32⟩
  | .hbm, ⟨33, _⟩ => ⟨S1500000x1, .i32⟩
  | .hbm, ⟨34, _⟩ => ⟨S1500000x3, .f32⟩
  | .hbm, ⟨35, _⟩ => ⟨S_, .i32⟩
  | .hbm, ⟨36, _⟩ => ⟨S1500000, .i32⟩
  | .hbm, ⟨37, _⟩ => ⟨S1500000, .i1⟩
  | .hbm, ⟨38, _⟩ => ⟨S_, .i32⟩
  | .hbm, ⟨39, _⟩ => ⟨S1500000, .i32⟩
  | .hbm, ⟨40, _⟩ => ⟨S1500000, .i32⟩
  | .hbm, ⟨41, _⟩ => ⟨S1500000, .i32⟩
  | .hbm, ⟨42, _⟩ => ⟨S1500000x1, .i32⟩
  | .hbm, ⟨43, _⟩ => ⟨S1500000x3, .f32⟩
  | .hbm, ⟨44, _⟩ => ⟨S1500000x3, .f32⟩
  | .hbm, ⟨45, _⟩ => ⟨S_, .i32⟩
  | .hbm, ⟨46, _⟩ => ⟨S1500000, .i32⟩
  | .hbm, ⟨47, _⟩ => ⟨S1500000, .i1⟩
  | .hbm, ⟨48, _⟩ => ⟨S_, .i32⟩
  | .hbm, ⟨49, _⟩ => ⟨S1500000, .i32⟩
  | .hbm, ⟨50, _⟩ => ⟨S1500000, .i32⟩
  | .hbm, ⟨51, _⟩ => ⟨S1500000, .i32⟩
  | .hbm, ⟨52, _⟩ => ⟨S1500000x1, .i32⟩
  | .hbm, ⟨53, _⟩ => ⟨S1500000x3, .f32⟩
  | .hbm, ⟨54, _⟩ => ⟨S_, .i32⟩
  | .hbm, ⟨55, _⟩ => ⟨S_, .f32⟩
  | .hbm, ⟨56, _⟩ => ⟨S1503232x64, .f32⟩
  | .hbm, ⟨57, _⟩ => ⟨S_, .i32⟩
  | .hbm, ⟨58, _⟩ => ⟨S_, .f32⟩
  | .hbm, ⟨59, _⟩ => ⟨S1503232x3, .f32⟩
  | .hbm, ⟨60, _⟩ => ⟨S_, .i32⟩
  | .hbm, ⟨61, _⟩ => ⟨S_, .f32⟩
  | .hbm, ⟨62, _⟩ => ⟨S1503232x3, .f32⟩
  | .hbm, ⟨63, _⟩ => ⟨S_, .i32⟩
  | .hbm, ⟨64, _⟩ => ⟨S_, .i32⟩
  | .hbm, ⟨65, _⟩ => ⟨S1503232, .i32⟩
  | .hbm, ⟨66, _⟩ => ⟨S64x64, .f32⟩
  | .hbm, ⟨67, _⟩ => ⟨S3x64, .f32⟩
  | .hbm, ⟨68, _⟩ => ⟨S3x64, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S1x1, .f32⟩
  | .hbm, ⟨73, _⟩ => ⟨S1503232x1, .f32⟩
  | .hbm, ⟨74, _⟩ => ⟨S1503232, .f32⟩
  | .hbm, ⟨75, _⟩ => ⟨S_, .f32⟩
  | .hbm, ⟨76, _⟩ => ⟨S200001, .f32⟩
  | .hbm, ⟨77, _⟩ => ⟨S1503232x1, .i32⟩
  | .hbm, ⟨78, _⟩ => ⟨S200001, .f32⟩
  | .hbm, ⟨79, _⟩ => ⟨S200000, .f32⟩
  | .hbm, ⟨80, _⟩ => ⟨S_, .f32⟩
  | .hbm, ⟨81, _⟩ => ⟨S1503232, .f32⟩
  | .hbm, ⟨82, _⟩ => ⟨S_, .f32⟩
  | .hbm, ⟨83, _⟩ => ⟨S200001, .f32⟩
  | .hbm, ⟨84, _⟩ => ⟨S1503232x1, .i32⟩
  | .hbm, ⟨85, _⟩ => ⟨S200001, .f32⟩
  | .hbm, ⟨86, _⟩ => ⟨S200000, .f32⟩
  | .hbm, ⟨87, _⟩ => ⟨S_, .f32⟩
  | .hbm, ⟨88, _⟩ => ⟨S200000, .f32⟩
  | .hbm, ⟨89, _⟩ => ⟨S200000, .i1⟩
  | .hbm, ⟨90, _⟩ => ⟨S_, .f32⟩
  | .hbm, ⟨91, _⟩ => ⟨S200000, .f32⟩
  | .hbm, ⟨92, _⟩ => ⟨S200000, .f32⟩
  | .hbm, ⟨93, _⟩ => ⟨S200000, .f32⟩
  | .hbm, ⟨94, _⟩ => ⟨S_, .f32⟩
  | .hbm, ⟨95, _⟩ => ⟨S_, .f32⟩
  | .hbm, ⟨96, _⟩ => ⟨S200000, .f32⟩
  | .hbm, ⟨97, _⟩ => ⟨S200000, .f32⟩
  | .local _ .vmem, ⟨0, _⟩ => ⟨S4096x64, .f32⟩
  | .local _ .vmem, ⟨1, _⟩ => ⟨S4096x64, .f32⟩
  | .local _ .vmem, ⟨2, _⟩ => ⟨S4096x3, .f32⟩
  | .local _ .vmem, ⟨3, _⟩ => ⟨S4096x3, .f32⟩
  | .local _ .vmem, ⟨4, _⟩ => ⟨S4096x3, .f32⟩
  | .local _ .vmem, ⟨5, _⟩ => ⟨S4096x3, .f32⟩
  | .local _ .vmem, ⟨6, _⟩ => ⟨S64x64, .f32⟩
  | .local _ .vmem, ⟨7, _⟩ => ⟨S3x64, .f32⟩
  | .local _ .vmem, ⟨8, _⟩ => ⟨S3x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S64x1, .f32⟩
  | .local _ .vmem, ⟨15, _⟩ => ⟨S1x1, .f32⟩
  | .local _ .vmem, ⟨16, _⟩ => ⟨S4096x1, .f32⟩
  | .local _ .vmem, ⟨17, _⟩ => ⟨S4096x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_call0_v0 : Ref sig .tc := ⟨.hbm, 55, rfl⟩
abbrev main_v32 : Ref sig .tc := ⟨.hbm, 56, rfl⟩
abbrev main_c_8 : Ref sig .tc := ⟨.hbm, 57, rfl⟩
abbrev main_call1_v0 : Ref sig .tc := ⟨.hbm, 58, rfl⟩
abbrev main_v33 : Ref sig .tc := ⟨.hbm, 59, rfl⟩
abbrev main_c_9 : Ref sig .tc := ⟨.hbm, 60, rfl⟩
abbrev main_call2_v0 : Ref sig .tc := ⟨.hbm, 61, rfl⟩
abbrev main_v34 : Ref sig .tc := ⟨.hbm, 62, rfl⟩
abbrev main_c_10 : Ref sig .tc := ⟨.hbm, 63, rfl⟩
abbrev main_call3_v0 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_13 : Ref sig .tc := ⟨.hbm, 87, rfl⟩
abbrev main_v54 : Ref sig .tc := ⟨.hbm, 88, rfl⟩
abbrev main_v55 : Ref sig .tc := ⟨.hbm, 89, rfl⟩
abbrev main_cst_14 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_15 : Ref sig .tc := ⟨.hbm, 94, rfl⟩
abbrev main_call4_v0 : Ref sig .tc := ⟨.hbm, 95, rfl⟩
abbrev main_call4_v1 : Ref sig .tc := ⟨.hbm, 96, rfl⟩
abbrev main_v59 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![367], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4096x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S100000x4_S100000x3_0_1 : S100000x4.Slices ![0, 1] S100000x3
  slices_S200000x4_S200000x3_0_1 : S200000x4.Slices ![0, 1] S200000x3
  bcast_S_S1500000 : S_.BroadcastsInDim S1500000 (![] : Fin 0 → Fin S1500000.rank)
  bcast_S1500000_S1500000x1_0 : S1500000.BroadcastsInDim S1500000x1 (![0] : Fin 1 → Fin S1500000x1.rank)
  pads_S1500000x64_S1503232x64_032320_000 : S1500000x64.Pads (![0, 0] : Fin 2 → Nat) ![3232, 0] ![0, 0] S1503232x64
  h_S_ : 0 < S_.numel
  pads_S1500000x3_S1503232x3_032320_000 : S1500000x3.Pads (![0, 0] : Fin 2 → Nat) ![3232, 0] ![0, 0] S1503232x3
  pads_S1500000_S1503232_032320 : S1500000.Pads (![0] : Fin 1 → Nat) ![3232] ![0] S1503232
  slices_S70x64_S64x64_0_0 : S70x64.Slices ![0, 0] S64x64
  slices_S70x64_S3x64_64_0 : S70x64.Slices ![64, 0] S3x64
  slices_S70x64_S3x64_67_0 : S70x64.Slices ![67, 0] S3x64
  shapeCasts_S64_S1x64 : S64.ShapeCasts S1x64
  shapeCasts_S1_S1x1 : S1.ShapeCasts S1x1
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  bitsLt_bf16_f32 : FTy.bits .bf16 < FTy.bits .f32
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S1503232x1_S1503232 : S1503232x1.ShapeCasts S1503232
  bcast_S_S200001 : S_.BroadcastsInDim S200001 (![] : Fin 0 → Fin S200001.rank)
  bcast_S1503232_S1503232x1_0 : S1503232.BroadcastsInDim S1503232x1 (![0] : Fin 1 → Fin S1503232x1.rank)
  slices_S200001_S200000_0 : S200001.Slices ![0] S200000
  bcast_S_S1503232 : S_.BroadcastsInDim S1503232 (![] : Fin 0 → Fin S1503232.rank)
  bcast_S_S200000 : S_.BroadcastsInDim S200000 (![] : Fin 0 → Fin S200000.rank)
  gather_S100000x64_S1500000x1_S1500000x64_1_0_n_n_0_1_164_wf : GatherDims.WF S100000x64 S1500000x1 S1500000x64 [1] [0] [] [0] [] 1 ![1, 64]
  gather_S200000x3_S1500000x1_S1500000x3_1_0_n_n_0_1_13_wf : GatherDims.WF S200000x3 S1500000x1 S1500000x3 [1] [0] [] [0] [] 1 ![1, 3]
  gather_S100000x3_S1500000x1_S1500000x3_1_0_n_n_0_1_13_wf : GatherDims.WF S100000x3 S1500000x1 S1500000x3 [1] [0] [] [0] [] 1 ![1, 3]
  dot_S4096x64_S64x64_S4096x64_1_0_0_1_n_n_wf : DotDims.WF S4096x64 S64x64 S4096x64 [1] [0] [0] [1] [] []
  dot_S4096x3_S3x64_S4096x64_1_0_0_1_n_n_wf : DotDims.WF S4096x3 S3x64 S4096x64 [1] [0] [0] [1] [] []
  dot_S4096x64_S64x1_S4096x1_1_0_0_1_n_n_wf : DotDims.WF S4096x64 S64x1 S4096x1 [1] [0] [0] [1] [] []
  scatter_S200001_S1503232x1_S1503232_n_0_0_1_wf : ScatterDims.WF S200001 S1503232x1 S1503232 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S1503232x64.size a
  hwx0_0 : ∀ i : grid0.Coords, EltTy.bits .f32 = 32 ∨ (Rect.block (s := S1503232x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S1503232x3.size a
  hwx0_1 : ∀ i : grid0.Coords, EltTy.bits .f32 = 32 ∨ (Rect.block (s := S1503232x3) S4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x3.size a ≤ S1503232x3.size a
  hwx0_2 : ∀ i : grid0.Coords, EltTy.bits .f32 = 32 ∨ (Rect.block (s := S1503232x3) S4096x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x64.size a ≤ S3x64.size a
  hwx0_4 : ∀ i : grid0.Coords, EltTy.bits .f32 = 32 ∨ (Rect.block (s := S3x64) S3x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x64.size a ≤ S3x64.size a
  hwx0_5 : ∀ i : grid0.Coords, EltTy.bits .f32 = 32 ∨ (Rect.block (s := S3x64) S3x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x1.size a ≤ S64x1.size a
  hwx0_11 : ∀ i : grid0.Coords, EltTy.bits .f32 = 32 ∨ (Rect.block (s := S64x1) S64x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4096x1.size a ≤ S1503232x1.size a
  hwx0_13 : ∀ i : grid0.Coords, EltTy.bits .f32 = 32 ∨ (Rect.block (s := S1503232x1) S4096x1.size (cc0_transform_13 i) (hinb0_13 i)).WholeWords (EltTy.packing .f32)

variable [Facts₀]

def gather_S100000x64_S1500000x1_S1500000x64_1_0_n_n_0_1_164 : GatherDims S100000x64 S1500000x1 S1500000x64 where
  offsetDims := [1]
  collapsedSliceDims := [0]
  operandBatchingDims := []
  startIndicesBatchingDims := []
  startIndexMap := [0]
  indexVectorDim := 1
  sliceSizes := ![1, 64]
  wf := gather_S100000x64_S1500000x1_S1500000x64_1_0_n_n_0_1_164_wf
def gather_S200000x3_S1500000x1_S1500000x3_1_0_n_n_0_1_13 : GatherDims S200000x3 S1500000x1 S1500000x3 where
  offsetDims := [1]
  collapsedSliceDims := [0]
  operandBatchingDims := []
  startIndicesBatchingDims := []
  startIndexMap := [0]
  indexVectorDim := 1
  sliceSizes := ![1, 3]
  wf := gather_S200000x3_S1500000x1_S1500000x3_1_0_n_n_0_1_13_wf
def gather_S100000x3_S1500000x1_S1500000x3_1_0_n_n_0_1_13 : GatherDims S100000x3 S1500000x1 S1500000x3 where
  offsetDims := [1]
  collapsedSliceDims := [0]
  operandBatchingDims := []
  startIndicesBatchingDims := []
  startIndexMap := [0]
  indexVectorDim := 1
  sliceSizes := ![1, 3]
  wf := gather_S100000x3_S1500000x1_S1500000x3_1_0_n_n_0_1_13_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x3_S3x64_S4096x64_1_0_0_1_n_n : DotDims S4096x3 S3x64 S4096x64 where
  lhsContracting := [1]
  rhsContracting := [0]
  lhsNonContracting := [0]
  rhsNonContracting := [1]
  lhsBatch := []
  rhsBatch := []
  wf := dot_S4096x3_S3x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def scatter_S200001_S1503232x1_S1503232_n_0_0_1 : ScatterDims S200001 S1503232x1 S1503232 where
  updateWindowDims := []
  insertedWindowDims := [0]
  scatterDimsToOperandDims := [0]
  indexVectorDim := 1
  wf := scatter_S200001_S1503232x1_S1503232_n_0_0_1_wf

abbrev win0_0 : Pipeline.Window sig grid0 :=
  Pipeline.Window.ofSpec (Memref.whole main_v32) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S4096x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S3x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S3x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v41) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S64x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v42) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v43) S4096x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x4 : Shape := ⟨2, ![100000, 4]⟩
abbrev S100000x64 : Shape := ⟨2, ![100000, 64]⟩
abbrev S200000x4 : Shape := ⟨2, ![200000, 4]⟩
abbrev S1500000 : Shape := ⟨1, ![1500000]⟩
abbrev S70x64 : Shape := ⟨2, ![70, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000x3 : Shape := ⟨2, ![100000, 3]⟩
abbrev S200000x3 : Shape := ⟨2, ![200000, 3]⟩
abbrev S_ : Shape := ⟨0, ![]⟩
abbrev S1500000x1 : Shape := ⟨2, ![1500000, 1]⟩
abbrev S1500000x3 : Shape := ⟨2, ![1500000, 3]⟩
abbrev S1500000x64 : Shape := ⟨2, ![1500000, 64]⟩
abbrev S1500000x70 : Shape := ⟨2, ![1500000, 70]⟩
abbrev S1x64 : Shape := ⟨2, ![1, 64]⟩
abbrev S1x1 : Shape := ⟨2, ![1, 1]⟩
abbrev S200000 : Shape := ⟨1, ![200000]⟩

abbrev nBuf : Space → Nat
  | .hbm => 99
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S100000x64, .f32⟩
  | .hbm, ⟨2, _⟩ => ⟨S100000x4, .f32⟩
  | .hbm, ⟨3, _⟩ => ⟨S200000x4, .f32⟩
  | .hbm, ⟨4, _⟩ => ⟨S1500000, .i32⟩
  | .hbm, ⟨5, _⟩ => ⟨S1500000, .i32⟩
  | .hbm, ⟨6, _⟩ => ⟨S70x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S100000x3, .f32⟩
  | .hbm, ⟨15, _⟩ => ⟨S200000x3, .f32⟩
  | .hbm, ⟨16, _⟩ => ⟨S100000x3, .f32⟩
  | .hbm, ⟨17, _⟩ => ⟨S_, .i32⟩
  | .hbm, ⟨18, _⟩ => ⟨S1500000, .i32⟩
  | .hbm, ⟨19, _⟩ => ⟨S1500000, .i1⟩
  | .hbm, ⟨20, _⟩ => ⟨S_, .i32⟩
  | .hbm, ⟨21, _⟩ => ⟨S1500000, .i32⟩
  | .hbm, ⟨22, _⟩ => ⟨S1500000, .i32⟩
  | .hbm, ⟨23, _⟩ => ⟨S1500000, .i32⟩
  | .hbm, ⟨24, _⟩ => ⟨S1500000x1, .i32⟩
  | .hbm, ⟨25, _⟩ => ⟨S1500000x3, .f32⟩
  | .hbm, ⟨26, _⟩ => ⟨S_, .i32⟩
  | .hbm, ⟨27, _⟩ => ⟨S1500000, .i32⟩
  | .hbm, ⟨28, _⟩ => ⟨S1500000, .i1⟩
  | .hbm, ⟨29, _⟩ => ⟨S_, .i32⟩
  | .hbm, ⟨30, _⟩ => ⟨S1500000, .i32⟩
  | .hbm, ⟨31, _⟩ => ⟨S1500000, .i32⟩
  | .hbm, ⟨32, _⟩ => ⟨S1500000, .i32⟩
  | .hbm, ⟨33, _⟩ => ⟨S1500000x1, .i32⟩
  | .hbm, ⟨34, _⟩ => ⟨S1500000x3, .f32⟩
  | .hbm, ⟨35, _⟩ => ⟨S1500000x3, .f32⟩
  | .hbm, ⟨36, _⟩ => ⟨S_, .i32⟩
  | .hbm, ⟨37, _⟩ => ⟨S1500000, .i32⟩
  | .hbm, ⟨38, _⟩ => ⟨S1500000, .i1⟩
  | .hbm, ⟨39, _⟩ => ⟨S_, .i32⟩
  | .hbm, ⟨40, _⟩ => ⟨S1500000, .i32⟩
  | .hbm, ⟨41, _⟩ => ⟨S1500000, .i32⟩
  | .hbm, ⟨42, _⟩ => ⟨S1500000, .i32⟩
  | .hbm, ⟨43, _⟩ => ⟨S1500000x1, .i32⟩
  | .hbm, ⟨44, _⟩ => ⟨S1500000x64, .f32⟩
  | .hbm, ⟨45, _⟩ => ⟨S_, .i32⟩
  | .hbm, ⟨46, _⟩ => ⟨S1500000, .i32⟩
  | .hbm, ⟨47, _⟩ => ⟨S1500000, .i1⟩
  | .hbm, ⟨48, _⟩ => ⟨S_, .i32⟩
  | .hbm, ⟨49, _⟩ => ⟨S1500000, .i32⟩
  | .hbm, ⟨50, _⟩ => ⟨S1500000, .i32⟩
  | .hbm, ⟨51, _⟩ => ⟨S1500000, .i32⟩
  | .hbm, ⟨52, _⟩ => ⟨S1500000x1, .i32⟩
  | .hbm, ⟨53, _⟩ => ⟨S1500000x3, .f32⟩
  | .hbm, ⟨54, _⟩ => ⟨S1500000x70, .f32⟩
  | .hbm, ⟨55, _⟩ => ⟨S1500000x64, .f32⟩
  | .hbm, ⟨56, _⟩ => ⟨S1x64, .f32⟩
  | .hbm, ⟨57, _⟩ => ⟨S1500000x64, .f32⟩
  | .hbm, ⟨58, _⟩ => ⟨S1500000x64, .f32⟩
  | .hbm, ⟨59, _⟩ => ⟨S_, .f32⟩
  | .hbm, ⟨60, _⟩ => ⟨S1500000x64, .f32⟩
  | .hbm, ⟨61, _⟩ => ⟨S1500000x64, .f32⟩
  | .hbm, ⟨62, _⟩ => ⟨S1500000x64, .f32⟩
  | .hbm, ⟨63, _⟩ => ⟨S1x64, .f32⟩
  | .hbm, ⟨64, _⟩ => ⟨S1500000x64, .f32⟩
  | .hbm, ⟨65, _⟩ => ⟨S1500000x64, .f32⟩
  | .hbm, ⟨66, _⟩ => ⟨S_, .f32⟩
  | .hbm, ⟨67, _⟩ => ⟨S1500000x64, .f32⟩
  | .hbm, ⟨68, _⟩ => ⟨S1500000x64, .f32⟩
  | .hbm, ⟨69, _⟩ => ⟨S1500000x64, .f32⟩
  | .hbm, ⟨70, _⟩ => ⟨S1x64, .f32⟩
  | .hbm, ⟨71, _⟩ => ⟨S1500000x64, .f32⟩
  | .hbm, ⟨72, _⟩ => ⟨S1500000x64, .f32⟩
  | .hbm, ⟨73, _⟩ => ⟨S1500000x1, .f32⟩
  | .hbm, ⟨74, _⟩ => ⟨S1x1, .f32⟩
  | .hbm, ⟨75, _⟩ => ⟨S1500000x1, .f32⟩
  | .hbm, ⟨76, _⟩ => ⟨S1500000x1, .f32⟩
  | .hbm, ⟨77, _⟩ => ⟨S1500000, .f32⟩
  | .hbm, ⟨78, _⟩ => ⟨S_, .f32⟩
  | .hbm, ⟨79, _⟩ => ⟨S200000, .f32⟩
  | .hbm, ⟨80, _⟩ => ⟨S1500000x1, .i32⟩
  | .hbm, ⟨81, _⟩ => ⟨S200000, .f32⟩
  | .hbm, ⟨82, _⟩ => ⟨S_, .f32⟩
  | .hbm, ⟨83, _⟩ => ⟨S1500000, .f32⟩
  | .hbm, ⟨84, _⟩ => ⟨S_, .f32⟩
  | .hbm, ⟨85, _⟩ => ⟨S200000, .f32⟩
  | .hbm, ⟨86, _⟩ => ⟨S1500000x1, .i32⟩
  | .hbm, ⟨87, _⟩ => ⟨S200000, .f32⟩
  | .hbm, ⟨88, _⟩ => ⟨S_, .f32⟩
  | .hbm, ⟨89, _⟩ => ⟨S200000, .f32⟩
  | .hbm, ⟨90, _⟩ => ⟨S200000, .i1⟩
  | .hbm, ⟨91, _⟩ => ⟨S_, .f32⟩
  | .hbm, ⟨92, _⟩ => ⟨S200000, .f32⟩
  | .hbm, ⟨93, _⟩ => ⟨S200000, .f32⟩
  | .hbm, ⟨94, _⟩ => ⟨S200000, .f32⟩
  | .hbm, ⟨95, _⟩ => ⟨S_, .f32⟩
  | .hbm, ⟨96, _⟩ => ⟨S_, .f32⟩
  | .hbm, ⟨97, _⟩ => ⟨S200000, .f32⟩
  | .hbm, ⟨98, _⟩ => ⟨S200000, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c : Ref sig .tc := ⟨.hbm, 17, rfl⟩
abbrev main_v3 : Ref sig .tc := ⟨.hbm, 18, rfl⟩
abbrev main_v4 : Ref sig .tc := ⟨.hbm, 19, rfl⟩
abbrev main_c_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call0_cst : Ref sig .tc := ⟨.hbm, 59, rfl⟩
abbrev main_call0_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call1_cst : Ref sig .tc := ⟨.hbm, 66, rfl⟩
abbrev main_call1_v0 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_9 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_11 : Ref sig .tc := ⟨.hbm, 95, rfl⟩
abbrev main_call2_v0 : Ref sig .tc := ⟨.hbm, 96, rfl⟩
abbrev main_call2_v1 : Ref sig .tc := ⟨.hbm, 97, rfl⟩
abbrev main_v64 : Ref sig .tc := ⟨.hbm, 98, rfl⟩

abbrev nD : Nat := 1
abbrev τ : Topo := Topo.v7x

variable {F : FTy → Type} [FloatOps F]

class Facts₀ : Prop where
  slices_S100000x4_S100000x3_0_1 : S100000x4.Slices ![0, 1] S100000x3
  slices_S200000x4_S200000x3_0_1 : S200000x4.Slices ![0, 1] S200000x3
  bcast_S_S1500000 : S_.BroadcastsInDim S1500000 (![] : Fin 0 → Fin S1500000.rank)
  bcast_S1500000_S1500000x1_0 : S1500000.BroadcastsInDim S1500000x1 (![0] : Fin 1 → Fin S1500000x1.rank)
  concatenates_S1500000x64_S1500000x3_S1500000x3_S1500000x70_d1 : Shape.Concatenates [S1500000x64, S1500000x3, S1500000x3] S1500000x70 1
  bcast_S64_S1x64_1 : S64.BroadcastsInDim S1x64 (![1] : Fin 1 → Fin S1x64.rank)
  bcast_S1x64_S1500000x64_0_1 : S1x64.BroadcastsInDim S1500000x64 (![0, 1] : Fin 2 → Fin S1500000x64.rank)
  bcast_S_S1500000x64 : S_.BroadcastsInDim S1500000x64 (![] : Fin 0 → Fin S1500000x64.rank)
  bcast_S1_S1x1_1 : S1.BroadcastsInDim S1x1 (![1] : Fin 1 → Fin S1x1.rank)
  bcast_S1x1_S1500000x1_0_1 : S1x1.BroadcastsInDim S1500000x1 (![0, 1] : Fin 2 → Fin S1500000x1.rank)
  shapeCasts_S1500000x1_S1500000 : S1500000x1.ShapeCasts S1500000
  bcast_S_S200000 : S_.BroadcastsInDim S200000 (![] : Fin 0 → Fin S200000.rank)
  gather_S200000x3_S1500000x1_S1500000x3_1_0_n_n_0_1_13_wf : GatherDims.WF S200000x3 S1500000x1 S1500000x3 [1] [0] [] [0] [] 1 ![1, 3]
  gather_S100000x3_S1500000x1_S1500000x3_1_0_n_n_0_1_13_wf : GatherDims.WF S100000x3 S1500000x1 S1500000x3 [1] [0] [] [0] [] 1 ![1, 3]
  gather_S100000x64_S1500000x1_S1500000x64_1_0_n_n_0_1_164_wf : GatherDims.WF S100000x64 S1500000x1 S1500000x64 [1] [0] [] [0] [] 1 ![1, 64]
  dot_S1500000x70_S70x64_S1500000x64_1_0_0_1_n_n_wf : DotDims.WF S1500000x70 S70x64 S1500000x64 [1] [0] [0] [1] [] []
  dot_S1500000x64_S64x64_S1500000x64_1_0_0_1_n_n_wf : DotDims.WF S1500000x64 S64x64 S1500000x64 [1] [0] [0] [1] [] []
  dot_S1500000x64_S64x1_S1500000x1_1_0_0_1_n_n_wf : DotDims.WF S1500000x64 S64x1 S1500000x1 [1] [0] [0] [1] [] []
  scatter_S200000_S1500000x1_S1500000_n_0_0_1_wf : ScatterDims.WF S200000 S1500000x1 S1500000 [] [0] [0] 1

variable [Facts₀]

def gather_S200000x3_S1500000x1_S1500000x3_1_0_n_n_0_1_13 : GatherDims S200000x3 S1500000x1 S1500000x3 where
  offsetDims := [1]
  collapsedSliceDims := [0]
  operandBatchingDims := []
  startIndicesBatchingDims := []
  startIndexMap := [0]
  indexVectorDim := 1
  sliceSizes := ![1, 3]
  wf := gather_S200000x3_S1500000x1_S1500000x3_1_0_n_n_0_1_13_wf
def gather_S100000x3_S1500000x1_S1500000x3_1_0_n_n_0_1_13 : GatherDims S100000x3 S1500000x1 S1500000x3 where
  offsetDims := [1]
  collapsedSliceDims := [0]
  operandBatchingDims := []
  startIndicesBatchingDims := []
  startIndexMap := [0]
  indexVectorDim := 1
  sliceSizes := ![1, 3]
  wf := gather_S100000x3_S1500000x1_S1500000x3_1_0_n_n_0_1_13_wf
def gather_S100000x64_S1500000x1_S1500000x64_1_0_n_n_0_1_164 : GatherDims S100000x64 S1500000x1 S1500000x64 where
  offsetDims := [1]
  collapsedSliceDims := [0]
  operandBatchingDims := []
  startIndicesBatchingDims := []
  startIndexMap := [0]
  indexVectorDim := 1
  sliceSizes := ![1, 64]
  wf := gather_S100000x64_S1500000x1_S1500000x64_1_0_n_n_0_1_164_wf
def dot_S1500000x70_S70x64_S1500000x64_1_0_0_1_n_n : DotDims S1500000x70 S70x64 S1500000x64 where
  lhsContracting := [1]
  rhsContracting := [0]
  lhsNonContracting := [0]
  rhsNonContracting := [1]
  lhsBatch := []
  rhsBatch := []
  wf := dot_S1500000x70_S70x64_S1500000x64_1_0_0_1_n_n_wf
def dot_S1500000x64_S64x64_S1500000x64_1_0_0_1_n_n : DotDims S1500000x64 S64x64 S1500000x64 where
  lhsContracting := [1]
  rhsContracting := [0]
  lhsNonContracting := [0]
  rhsNonContracting := [1]
  lhsBatch := []
  rhsBatch := []
  wf := dot_S1500000x64_S64x64_S1500000x64_1_0_0_1_n_n_wf
def dot_S1500000x64_S64x1_S1500000x1_1_0_0_1_n_n : DotDims S1500000x64 S64x1 S1500000x1 where
  lhsContracting := [1]
  rhsContracting := [0]
  lhsNonContracting := [0]
  rhsNonContracting := [1]
  lhsBatch := []
  rhsBatch := []
  wf := dot_S1500000x64_S64x1_S1500000x1_1_0_0_1_n_n_wf
def scatter_S200000_S1500000x1_S1500000_n_0_0_1 : ScatterDims S200000 S1500000x1 S1500000 where
  updateWindowDims := []
  insertedWindowDims := [0]
  scatterDimsToOperandDims := [0]
  indexVectorDim := 1
  wf := scatter_S200000_S1500000x1_S1500000_n_0_0_1_wf

class Facts : Prop extends Facts₀ where

variable [Facts]
-- ==== Proof.Spec.lean ====
/-
  The mathematics both programs compute, on the extended reals.

  Every edge `e` carries three feature rows: `l` (64 numbers), `p` and `d` (3 numbers each). A four-layer perceptron maps
  them to one number: the first layer multiplies the 70 features by a 70 × 64 matrix, adds a bias and clips at zero; the
  second does the same with a 64 × 64 matrix; the third has no clipping; the last is a 64 × 1 matrix and a bias. The
  70 × 64 matrix may be applied as one product over the joined row of 70 features, or as three products over its row
  blocks 0–63, 64–66 and 67–69 added up: a finite sum over 70 positions is the sum of its three stretches, which holds in
  any commutative monoid, so in particular on the extended reals with their infinities.

  The edges' numbers are then averaged per target: target `i` receives the sum of the numbers of the edges whose target id
  is `i`, divided by the count of such edges (at least one), or a fill value when there is none. Sum and count enter the
  result only through `meanTail`, which is the same on both sides.
-/
import Idealize.ShloMosaic.Lib.ValueIdx
import Idealize.ShloMosaic.PureOps.Ideal.Laws

noncomputable section

namespace Cert.EdgeMlp

open Idealize.ShloMosaic Idealize.ShloMosaic.ValueIdx

/-- First layer, the product taken block by block: entry `j` is `max (l·Wl + p·Wp + d·Wd + b) 0`. -/
def layer0 (l : Fin 64 → EReal) (p d : Fin 3 → EReal) (Wl : Fin 64 → Fin 64 → EReal) (Wp Wd : Fin 3 → Fin 64 → EReal)
    (b : Fin 64 → EReal) (j : Fin 64) : EReal :=
  max ((((∑ k : Fin 64, l k * Wl k j) + ∑ k : Fin 3, p k * Wp k j) + ∑ k : Fin 3, d k * Wd k j) + b j) 0

/-- First layer over the joined row of 70 features. -/
def layer0cat (x : Fin 70 → EReal) (W : Fin 70 → Fin 64 → EReal) (b : Fin 64 → EReal) (j : Fin 64) : EReal :=
  max ((∑ k : Fin 70, x k * W k j) + b j) 0

/-- A clipped dense layer: entry `j` is `max (h·W + b) 0`. -/
def layerRelu (h : Fin 64 → EReal) (W : Fin 64 → Fin 64 → EReal) (b : Fin 64 → EReal) (j : Fin 64) : EReal :=
  max ((∑ k : Fin 64, h k * W k j) + b j) 0

/-- A dense layer without clipping. -/
def layerLin (h : Fin 64 → EReal) (W : Fin 64 → Fin 64 → EReal) (b : Fin 64 → EReal) (j : Fin 64) : EReal :=
  (∑ k : Fin 64, h k * W k j) + b j

/-- The last layer: one output. -/
def head (h : Fin 64 → EReal) (Wo : Fin 64 → EReal) (bo : EReal) : EReal :=
  (∑ k : Fin 64, h k * Wo k) + bo

/-- Layers two to four, from the first layer's output. -/
def upper (h0 : Fin 64 → EReal) (W1 : Fin 64 → Fin 64 → EReal) (b1 : Fin 64 → EReal) (W2 : Fin 64 → Fin 64 → EReal)
    (b2 : Fin 64 → EReal) (Wo : Fin 64 → EReal) (bo : EReal) : EReal :=
  head (layerLin (layerRelu h0 W1 b1) W2 b2) Wo bo

/-- One edge's number from its three feature rows. -/
def mlp (l : Fin 64 → EReal) (p d : Fin 3 → EReal) (Wl : Fin 64 → Fin 64 → EReal) (Wp Wd : Fin 3 → Fin 64 → EReal)
    (bin : Fin 64 → EReal) (W1 : Fin 64 → Fin 64 → EReal) (b1 : Fin 64 → EReal) (W2 : Fin 64 → Fin 64 → EReal)
    (b2 : Fin 64 → EReal) (Wo : Fin 64 → EReal) (bo : EReal) : EReal :=
  upper (layer0 l p d Wl Wp Wd bin) W1 b1 W2 b2 Wo bo

/-- A sum over 70 positions is the sum of its stretches 0–63, 64–66, 67–69. -/
theorem sum70 {M : Type*} [AddCommMonoid M] (f : Fin 70 → M) :
    ∑ k : Fin 70, f k
      = ((∑ k : Fin 64, f ⟨k.val, by omega⟩) + ∑ k : Fin 3, f ⟨64 + k.val, by omega⟩) + ∑ k : Fin 3, f ⟨67 + k.val, by omega⟩ := by
  have h1 := Fin.sum_univ_add (a := 67) (b := 3) (fun k : Fin (67 + 3) => f k)
  have h2 := Fin.sum_univ_add (a := 64) (b := 3) (fun k : Fin (64 + 3) => f ⟨k.val, by omega⟩)
  refine h1.trans ?_
  refine congrArg₂ (· + ·) ?_ ?_
  · exact h2
  · rfl

/-- The first layer over the joined row is the first layer block by block, when the joined row's three stretches are
    `l`, `p`, `d` and the matrix's row blocks are `Wl`, `Wp`, `Wd`. -/
theorem layer0cat_eq (x : Fin 70 → EReal) (W : Fin 70 → Fin 64 → EReal) (b : Fin 64 → EReal)
    (l : Fin 64 → EReal) (p d : Fin 3 → EReal) (Wl : Fin 64 → Fin 64 → EReal) (Wp Wd : Fin 3 → Fin 64 → EReal)
    (hl : ∀ k : Fin 64, x ⟨k.val, by omega⟩ = l k) (hp : ∀ k : Fin 3, x ⟨64 + k.val, by omega⟩ = p k)
    (hd : ∀ k : Fin 3, x ⟨67 + k.val, by omega⟩ = d k)
    (hWl : ∀ (k : Fin 64) j, W ⟨k.val, by omega⟩ j = Wl k j) (hWp : ∀ (k : Fin 3) j, W ⟨64 + k.val, by omega⟩ j = Wp k j)
    (hWd : ∀ (k : Fin 3) j, W ⟨67 + k.val, by omega⟩ j = Wd k j) (j : Fin 64) :
    layer0cat x W b j = layer0 l p d Wl Wp Wd b j := by
  unfold layer0cat layer0
  rw [sum70 (fun k => x k * W k j)]
  simp only [hl, hp, hd, hWl, hWp, hWd]

end Cert.EdgeMlp

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.BlockValue.lean ====
/-
  One block of edges through the perceptron, row by row.

  The body reads a block of 4096 edges — three feature blocks — and the network's matrices and bias rows, and
  writes one column of 4096 numbers. Every product in it is a rows-by-columns product accumulated into zero, so its
  entry (r, j) is the sum over k of the left operand's (r, k) times the right operand's (k, j); a bias row laid along
  all rows adds its entry j; clipping takes the maximum with zero; and on the extended reals a change of float format
  is the identity. Reading the written column at row r therefore gives the four layers applied to row r of the three
  feature blocks: the first layer as three products added up, the second clipped, the third not, and the last with one
  output.
-/
import proofs.«141471_j79121887527504_1_alg».proof.Proof.Gen.KernelIdeal.Frame
import proofs.«141471_j79121887527504_1_alg».proof.Proof.Spec
import proofs.«141471_j79121887527504_1_alg».proof.Proof.LibDense

noncomputable section

namespace Cert.KernelIdeal.BlockValue

open Idealize.ShloMosaic Idealize.ShloMosaic.ValueIdx Cert.KernelIdeal Cert.KernelIdeal.Gen

/-! ## The pieces every layer is made of -/

/-- A rows-by-columns product of two arrays, each first reduced in format, accumulated into zero: entry (r, j) is
    the sum over k of a (r, k) · w (k, j). The dimension numbers may be any record that is the rows-by-columns one. -/
theorem product_apply {M K N : ℕ} (d : DotDims ⟨2, ![M, K]⟩ ⟨2, ![K, N]⟩ ⟨2, ![M, N]⟩) (hd : d = DotDims.plain M K N)
    (h1 h2 : FTy.bits .bf16 < FTy.bits .f32) (a : FVec Ideal ⟨2, ![M, K]⟩ .f32) (w : FVec Ideal ⟨2, ![K, N]⟩ .f32)
    (r : Fin M) (j : Fin N) :
    matmul d none (truncf .bf16 a h1) (truncf .bf16 w h2) (constant (F := Ideal) ⟨2, ![M, N]⟩ .f32 0x00000000#32) (ix2 r j)
      = ∑ k : Fin K, a (ix2 r k) * w (ix2 k j) := by
  subst hd
  exact Cert.LibDense.matmul_plain_zero_apply none (truncf .bf16 a h1) (truncf .bf16 w h2) r j

/-- The same with each operand first cast to its own shape. -/
theorem product_cast_apply {M K N : ℕ} (d : DotDims ⟨2, ![M, K]⟩ ⟨2, ![K, N]⟩ ⟨2, ![M, N]⟩) (hd : d = DotDims.plain M K N)
    (h1 h2 : FTy.bits .bf16 < FTy.bits .f32) (c1 : (⟨2, ![M, K]⟩ : Shape).ShapeCasts ⟨2, ![M, K]⟩)
    (c2 : (⟨2, ![K, N]⟩ : Shape).ShapeCasts ⟨2, ![K, N]⟩) (a : FVec Ideal ⟨2, ![M, K]⟩ .f32) (w : FVec Ideal ⟨2, ![K, N]⟩ .f32)
    (r : Fin M) (j : Fin N) :
    matmul d none (truncf .bf16 (shapeCast ⟨2, ![M, K]⟩ a c1) h1) (truncf .bf16 (shapeCast ⟨2, ![K, N]⟩ w c2) h2)
        (constant (F := Ideal) ⟨2, ![M, N]⟩ .f32 0x00000000#32) (ix2 r j)
      = ∑ k : Fin K, a (ix2 r k) * w (ix2 k j) := by
  rw [shapeCast_self, shapeCast_self]
  exact product_apply d hd h1 h2 a w r j

/-- A bias row, cast to its own shape and laid along every row, read at (r, j): the row's entry j. -/
theorem bias_apply {A B : ℕ} (b : FVec Ideal ⟨2, ![1, B]⟩ .f32) (c : (⟨2, ![1, B]⟩ : Shape).ShapeCasts ⟨2, ![1, B]⟩)
    (hb : (⟨2, ![1, B]⟩ : Shape).Broadcasts ⟨2, ![A, B]⟩) (r : Fin A) (j : Fin B) :
    broadcastTo ⟨2, ![A, B]⟩ (shapeCast ⟨2, ![1, B]⟩ b c) hb (ix2 r j) = b (ix2 (0 : Fin 1) j) := by
  rw [shapeCast_self]
  exact broadcastTo_1b_ab_apply b hb r j

/-- A splat of the zero word is zero everywhere. -/
theorem zero_apply {s : Shape} (i : s.Idx) :
    broadcast s (Scalar.ofBits (F := Ideal) .f32 0x00000000#32) i = (0 : EReal) :=
  Ideal.ofBits_zero_f32

/-! ## The payloads at an index -/

/-- The second layer's product: entry (r, j) is the sum over k of the first layer's entry k on row r — the three
    products' sums plus the bias, clipped — times the second matrix's (k, j). -/
theorem pay2_apply (v0 : Vec Ideal S4096x64 .f32) (v3 v6 : Vec Ideal S4096x3 .f32) (v9 : Vec Ideal S64x64 .f32)
    (v12 v15 : Vec Ideal S3x64 .f32) (v23 : Vec Ideal S1x64 .f32) (v30 : Vec Ideal S64x64 .f32) (r : Fin 4096) (j : Fin 64) :
    k0_pay2 (F := Ideal) v0 v3 v6 v9 v12 v15 v23 v30 (ix2 r j)
      = ∑ k : Fin 64, Cert.EdgeMlp.layer0 (fun k => v0 (ix2 r k)) (fun k => v3 (ix2 r k)) (fun k => v6 (ix2 r k))
          (fun k j => v9 (ix2 k j)) (fun k j => v12 (ix2 k j)) (fun k j => v15 (ix2 k j)) (fun j => v23 (ix2 (0 : Fin 1) j)) k
          * v30 (ix2 k j) := by
  unfold k0_pay2
  refine (product_apply dot_S4096x64_S64x64_S4096x64_1_0_0_1_n_n rfl _ _ _ _ r j).trans ?_
  refine Finset.sum_congr rfl fun k _ => congrArg (· * v30 (ix2 k j)) ?_
  refine (maximumf_apply _ _ _).trans ?_
  refine congrArg₂ max ?_ (zero_apply _)
  refine (addf_apply _ _ _).trans ?_
  refine congrArg₂ (· + ·) ?_ (bias_apply v23 _ _ r k)
  refine (addf_apply _ _ _).trans ?_
  refine congrArg₂ (· + ·) ?_ (product_cast_apply dot_S4096x3_S3x64_S4096x64_1_0_0_1_n_n rfl _ _ _ _ v6 v15 r k)
  refine (addf_apply _ _ _).trans ?_
  exact congrArg₂ (· + ·) (product_cast_apply dot_S4096x64_S64x64_S4096x64_1_0_0_1_n_n rfl _ _ _ _ v0 v9 r k)
    (product_cast_apply dot_S4096x3_S3x64_S4096x64_1_0_0_1_n_n rfl _ _ _ _ v3 v12 r k)

/-- The second layer's bias laid along every row: entry (r, j) is the row's entry j. -/
theorem pay3_apply (v33 : Vec Ideal S1x64 .f32) (r : Fin 4096) (j : Fin 64) :
    k0_pay3 (F := Ideal) v33 (ix2 r j) = v33 (ix2 (0 : Fin 1) j) := by
  unfold k0_pay3
  exact bias_apply v33 _ _ r j

/-- The written column at row r, from the second layer's product and bias: clip their sum, apply the third layer
    (no clipping), then the last layer's one output. -/
theorem pay1_apply (v32 v35 : FVec Ideal S4096x64 .f32) (v40 : Vec Ideal S64x64 .f32) (v43 : Vec Ideal S1x64 .f32)
    (v48 : Vec Ideal S64x1 .f32) (v51 : Vec Ideal S1x1 .f32) (r : Fin 4096) :
    k0_pay1 (F := Ideal) v32 v35 v40 v43 v48 v51 (ix2 r (0 : Fin 1))
      = Cert.EdgeMlp.head
          (Cert.EdgeMlp.layerLin (fun j => max (v32 (ix2 r j) + v35 (ix2 r j)) 0) (fun k j => v40 (ix2 k j))
            (fun j => v43 (ix2 (0 : Fin 1) j)))
          (fun k => v48 (ix2 k (0 : Fin 1))) (v51 (ix2 (0 : Fin 1) (0 : Fin 1))) := by
  unfold k0_pay1
  refine (addf_apply _ _ _).trans ?_
  refine congrArg₂ (· + ·) ?_ (bias_apply v51 _ _ r (0 : Fin 1))
  refine (product_apply dot_S4096x64_S64x1_S4096x1_1_0_0_1_n_n rfl _ _ _ _ r (0 : Fin 1)).trans ?_
  refine Finset.sum_congr rfl fun k _ => congrArg (· * v48 (ix2 k (0 : Fin 1))) ?_
  refine (addf_apply _ _ _).trans ?_
  refine congrArg₂ (· + ·) ?_ (bias_apply v43 _ _ r k)
  refine (product_apply dot_S4096x64_S64x64_S4096x64_1_0_0_1_n_n rfl _ _ _ _ r k).trans ?_
  refine Finset.sum_congr rfl fun i _ => congrArg (· * v40 (ix2 i k)) ?_
  refine (maximumf_apply _ _ _).trans ?_
  exact congrArg₂ max (addf_apply _ _ _) (zero_apply _)

/-! ## The block the body writes -/

/-- The whole-block rectangles' offsets are zero. -/
theorem offsets_zero : (![0, 0] : Fin 2 → Nat) = fun _ => 0 := funext fun a => by fin_cases a <;> rfl

/-- Row r of the block the body writes is the network applied to row r of the three feature blocks. -/
theorem out0_13_apply (x0 : Vec Ideal S4096x64 .f32) (x1 x2 : Vec Ideal S4096x3 .f32) (x3 : Vec Ideal S64x64 .f32) (x4 x5 : Vec Ideal S3x64 .f32)
    (x6 : Vec Ideal S1x64 .f32) (x7 : Vec Ideal S64x64 .f32) (x8 : Vec Ideal S1x64 .f32) (x9 : Vec Ideal S64x64 .f32) (x10 : Vec Ideal S1x64 .f32)
    (x11 : Vec Ideal S64x1 .f32) (x12 : Vec Ideal S1x1 .f32) (r : Fin 4096) :
    Gen.out0_13 (F := Ideal) x0 x1 x2 x3 x4 x5 x6 x7 x8 x9 x10 x11 x12 (ix2 r (0 : Fin 1))
      = Cert.EdgeMlp.mlp (fun k => x0 (ix2 r k)) (fun k => x1 (ix2 r k)) (fun k => x2 (ix2 r k))
          (fun k j => x3 (ix2 k j)) (fun k j => x4 (ix2 k j)) (fun k j => x5 (ix2 k j)) (fun j => x6 (ix2 (0 : Fin 1) j))
          (fun k j => x7 (ix2 k j)) (fun j => x8 (ix2 (0 : Fin 1) j)) (fun k j => x9 (ix2 k j)) (fun j => x10 (ix2 (0 : Fin 1) j))
          (fun k => x11 (ix2 k (0 : Fin 1))) (x12 (ix2 (0 : Fin 1) (0 : Fin 1))) := by
  unfold Gen.out0_13
  rw [View.canon_unit_zero offsets_zero]
  simp only [View.ld_unit_zero (S := S4096x64) offsets_zero, View.ld_unit_zero (S := S4096x3) offsets_zero,
    View.ld_unit_zero (S := S64x64) offsets_zero, View.ld_unit_zero (S := S3x64) offsets_zero,
    View.ld_unit_zero (S := S1x64) offsets_zero, View.ld_unit_zero (S := S64x1) offsets_zero,
    View.ld_unit_zero (S := S1x1) offsets_zero]
  refine (pay1_apply _ _ x9 x10 x11 x12 r).trans ?_
  unfold Cert.EdgeMlp.mlp Cert.EdgeMlp.upper
  refine congrArg (fun h => Cert.EdgeMlp.head (Cert.EdgeMlp.layerLin h (fun k j => x9 (ix2 k j)) (fun j => x10 (ix2 (0 : Fin 1) j)))
    (fun k => x11 (ix2 k (0 : Fin 1))) (x12 (ix2 (0 : Fin 1) (0 : Fin 1)))) ?_
  funext j
  exact congrArg₂ (fun a b => max (a + b) 0) (pay2_apply x0 x1 x2 x3 x4 x5 x6 x7 r j) (pay3_apply x8 r j)

end Cert.KernelIdeal.BlockValue

end
-- ==== Proof.KernelArray.lean ====
/-
  The kernel's output array after the run.

  The region runs once per block of 4096 edges, 367 blocks in all. At point `t` the three feature windows and the output
  window sit at rows `4096·t … 4096·t + 4095` of their arrays and the ten weight windows at their whole arrays. So what
  point `t` writes back at row `r` of its block is the network applied to row `4096·t + r` of the three feature arrays:
  the block is the restriction of ONE whole-array function, `G`, and since every row `e` below 1503232 lies in block
  `e / 4096`, the array ends holding `G`.
-/
import proofs.«141471_j79121887527504_1_alg».proof.Proof.Gen.KernelIdeal.Frame
import proofs.«141471_j79121887527504_1_alg».proof.Proof.BlockValue
import proofs.«141471_j79121887527504_1_alg».proof.Proof.Spec
import Idealize.ShloMosaic.Lib.Pipeline.Value

set_option maxRecDepth 16384

noncomputable section

namespace Cert.KernelIdeal.KernelArray

open Idealize.ShloMosaic Idealize.ShloMosaic.TcCoe Idealize.SL.Sem Cert.KernelIdeal Cert.KernelIdeal.Gen
open Idealize.ShloMosaic.ValueIdx
open Idealize.ShloMosaic.Pipeline (Dat)

variable (m : (ℓ : Loc nD τ sig) → Buf (Elt Ideal) ℓ)

/-! ## The arrays the region finds, each at its literal type -/

abbrev aLat (c : Dev nD) : Vec Ideal S1503232x64 .f32 := V m c main_v32
abbrev aPos (c : Dev nD) : Vec Ideal S1503232x3 .f32 := V m c main_v33
abbrev aDir (c : Dev nD) : Vec Ideal S1503232x3 .f32 := V m c main_v34
abbrev aWl (c : Dev nD) : Vec Ideal S64x64 .f32 := V m c main_v36
abbrev aWp (c : Dev nD) : Vec Ideal S3x64 .f32 := V m c main_v37
abbrev aWd (c : Dev nD) : Vec Ideal S3x64 .f32 := V m c main_v38
abbrev aBin (c : Dev nD) : Vec Ideal S1x64 .f32 := V m c main_v39
abbrev aW1 (c : Dev nD) : Vec Ideal S64x64 .f32 := V m c main_arg8
abbrev aB1 (c : Dev nD) : Vec Ideal S1x64 .f32 := V m c main_v40
abbrev aW2 (c : Dev nD) : Vec Ideal S64x64 .f32 := V m c main_arg10
abbrev aB2 (c : Dev nD) : Vec Ideal S1x64 .f32 := V m c main_v41
abbrev aWo (c : Dev nD) : Vec Ideal S64x1 .f32 := V m c main_arg12
abbrev aBo (c : Dev nD) : Vec Ideal S1x1 .f32 := V m c main_v42

/-- The network applied to row `e` of the three padded feature arrays. -/
def rowVal (c : Dev nD) (e : Fin 1503232) : EReal :=
  Cert.EdgeMlp.mlp (fun k => aLat m c (ix2 e k)) (fun k => aPos m c (ix2 e k)) (fun k => aDir m c (ix2 e k))
    (fun k j => aWl m c (ix2 k j)) (fun k j => aWp m c (ix2 k j)) (fun k j => aWd m c (ix2 k j)) (fun j => aBin m c (ix2 (0 : Fin 1) j))
    (fun k j => aW1 m c (ix2 k j)) (fun j => aB1 m c (ix2 (0 : Fin 1) j)) (fun k j => aW2 m c (ix2 k j)) (fun j => aB2 m c (ix2 (0 : Fin 1) j))
    (fun k => aWo m c (ix2 k (0 : Fin 1))) (aBo m c (ix2 (0 : Fin 1) (0 : Fin 1)))

/-- The whole output array: entry (e, 0) is row `e`'s number. -/
def G (c : Dev nD) : Vec Ideal S1503232x1 .f32 := fun i => rowVal m c (i 0)

/-! ## Where the windows sit at a point -/

/-- The printed index maps over the grid: the feature windows and the output window at block `t`, the weight windows at
    block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = t.val ∧ win0_13.index t (1 : Fin 2) = 0 :=
  (by decide +kernel : ∀ t : Fin grid0.N, _)

/-- Row `r` of block `t` is row `4096·t + r` of the array. -/
def rowOf (t : Fin cfg0.N) (r : Fin 4096) : Fin 1503232 :=
  ⟨t.val * 4096 + r.val, by have ht : t.val < 367 := t.isLt; have hr := r.isLt; omega⟩

/-! ## Each window's block at a point, read off its array -/

/-- Window 0's block at point `t`, row `r`, column `k`: row `4096·t + r` of its array. -/
theorem blk_lat (c : Dev nD) (t : Fin cfg0.N) (r : Fin 4096) (k : Fin 64) :
    iblk m c 0 t (ix2 r k) = aLat m c (ix2 (rowOf t r) k) := by
  obtain ⟨h0_0, h0_1, h1_0, h1_1, h2_0, h2_1, -⟩ := idx_facts t
  show aLat m c (((cfg0.win 0).blk t).view.emb (ix2 r k)) = aLat m c (ix2 (rowOf t r) k)
  refine congrArg (aLat m c) (funext fun a => Fin.ext ?_)
  match a with
  | ⟨0, _⟩ => show win0_0.index t (0 : Fin 2) * 4096 + 1 * r.val = t.val * 4096 + r.val; omega
  | ⟨1, _⟩ => show win0_0.index t (1 : Fin 2) * 64 + 1 * k.val = k.val; omega

/-- Window 1's block at point `t`, row `r`, column `k`: row `4096·t + r` of its array. -/
theorem blk_pos (c : Dev nD) (t : Fin cfg0.N) (r : Fin 4096) (k : Fin 3) :
    iblk m c 1 t (ix2 r k) = aPos m c (ix2 (rowOf t r) k) := by
  obtain ⟨h0_0, h0_1, h1_0, h1_1, h2_0, h2_1, -⟩ := idx_facts t
  show aPos m c (((cfg0.win 1).blk t).view.emb (ix2 r k)) = aPos m c (ix2 (rowOf t r) k)
  refine congrArg (aPos m c) (funext fun a => Fin.ext ?_)
  match a with
  | ⟨0, _⟩ => show win0_1.index t (0 : Fin 2) * 4096 + 1 * r.val = t.val * 4096 + r.val; omega
  | ⟨1, _⟩ => show win0_1.index t (1 : Fin 2) * 3 + 1 * k.val = k.val; omega

/-- Window 2's block at point `t`, row `r`, column `k`: row `4096·t + r` of its array. -/
theorem blk_dir (c : Dev nD) (t : Fin cfg0.N) (r : Fin 4096) (k : Fin 3) :
    iblk m c 2 t (ix2 r k) = aDir m c (ix2 (rowOf t r) k) := by
  obtain ⟨h0_0, h0_1, h1_0, h1_1, h2_0, h2_1, -⟩ := idx_facts t
  show aDir m c (((cfg0.win 2).blk t).view.emb (ix2 r k)) = aDir m c (ix2 (rowOf t r) k)
  refine congrArg (aDir m c) (funext fun a => Fin.ext ?_)
  match a with
  | ⟨0, _⟩ => show win0_2.index t (0 : Fin 2) * 4096 + 1 * r.val = t.val * 4096 + r.val; omega
  | ⟨1, _⟩ => show win0_2.index t (1 : Fin 2) * 3 + 1 * k.val = k.val; omega

/-- Window 3 is its whole array at every point. -/
theorem blk_wl (c : Dev nD) (t : Fin cfg0.N) (r : Fin 64) (k : Fin 64) :
    iblk m c 3 t (ix2 r k) = aWl m c (ix2 r k) := by
  obtain ⟨-, -, -, -, -, -, h3_0, h3_1, h4_0, h4_1, h5_0, h5_1, h6_0, h6_1, h7_0, h7_1, h8_0, h8_1, h9_0, h9_1, h10_0, h10_1, h11_0, h11_1, h12_0, h12_1, -⟩ := idx_facts t
  show aWl m c (((cfg0.win 3).blk t).view.emb (ix2 r k)) = aWl m c (ix2 r k)
  refine congrArg (aWl m c) (funext fun a => Fin.ext ?_)
  match a with
  | ⟨0, _⟩ => show win0_3.index t (0 : Fin 2) * 64 + 1 * r.val = r.val; omega
  | ⟨1, _⟩ => show win0_3.index t (1 : Fin 2) * 64 + 1 * k.val = k.val; omega

/-- Window 4 is its whole array at every point. -/
theorem blk_wp (c : Dev nD) (t : Fin cfg0.N) (r : Fin 3) (k : Fin 64) :
    iblk m c 4 t (ix2 r k) = aWp m c (ix2 r k) := by
  obtain ⟨-, -, -, -, -, -, h3_0, h3_1, h4_0, h4_1, h5_0, h5_1, h6_0, h6_1, h7_0, h7_1, h8_0, h8_1, h9_0, h9_1, h10_0, h10_1, h11_0, h11_1, h12_0, h12_1, -⟩ := idx_facts t
  show aWp m c (((cfg0.win 4).blk t).view.emb (ix2 r k)) = aWp m c (ix2 r k)
  refine congrArg (aWp m c) (funext fun a => Fin.ext ?_)
  match a with
  | ⟨0, _⟩ => show win0_4.index t (0 : Fin 2) * 3 + 1 * r.val = r.val; omega
  | ⟨1, _⟩ => show win0_4.index t (1 : Fin 2) * 64 + 1 * k.val = k.val; omega

/-- Window 5 is its whole array at every point. -/
theorem blk_wd (c : Dev nD) (t : Fin cfg0.N) (r : Fin 3) (k : Fin 64) :
    iblk m c 5 t (ix2 r k) = aWd m c (ix2 r k) := by
  obtain ⟨-, -, -, -, -, -, h3_0, h3_1, h4_0, h4_1, h5_0, h5_1, h6_0, h6_1, h7_0, h7_1, h8_0, h8_1, h9_0, h9_1, h10_0, h10_1, h11_0, h11_1, h12_0, h12_1, -⟩ := idx_facts t
  show aWd m c (((cfg0.win 5).blk t).view.emb (ix2 r k)) = aWd m c (ix2 r k)
  refine congrArg (aWd m c) (funext fun a => Fin.ext ?_)
  match a with
  | ⟨0, _⟩ => show win0_5.index t (0 : Fin 2) * 3 + 1 * r.val = r.val; omega
  | ⟨1, _⟩ => show win0_5.index t (1 : Fin 2) * 64 + 1 * k.val = k.val; omega

/-- Window 6 is its whole array at every point. -/
theorem blk_bin (c : Dev nD) (t : Fin cfg0.N) (r : Fin 1) (k : Fin 64) :
    iblk m c 6 t (ix2 r k) = aBin m c (ix2 r k) := by
  obtain ⟨-, -, -, -, -, -, h3_0, h3_1, h4_0, h4_1, h5_0, h5_1, h6_0, h6_1, h7_0, h7_1, h8_0, h8_1, h9_0, h9_1, h10_0, h10_1, h11_0, h11_1, h12_0, h12_1, -⟩ := idx_facts t
  show aBin m c (((cfg0.win 6).blk t).view.emb (ix2 r k)) = aBin m c (ix2 r k)
  refine congrArg (aBin m c) (funext fun a => Fin.ext ?_)
  match a with
  | ⟨0, _⟩ => show win0_6.index t (0 : Fin 2) * 1 + 1 * r.val = r.val; omega
  | ⟨1, _⟩ => show win0_6.index t (1 : Fin 2) * 64 + 1 * k.val = k.val; omega

/-- Window 7 is its whole array at every point. -/
theorem blk_w1 (c : Dev nD) (t : Fin cfg0.N) (r : Fin 64) (k : Fin 64) :
    iblk m c 7 t (ix2 r k) = aW1 m c (ix2 r k) := by
  obtain ⟨-, -, -, -, -, -, h3_0, h3_1, h4_0, h4_1, h5_0, h5_1, h6_0, h6_1, h7_0, h7_1, h8_0, h8_1, h9_0, h9_1, h10_0, h10_1, h11_0, h11_1, h12_0, h12_1, -⟩ := idx_facts t
  show aW1 m c (((cfg0.win 7).blk t).view.emb (ix2 r k)) = aW1 m c (ix2 r k)
  refine congrArg (aW1 m c) (funext fun a => Fin.ext ?_)
  match a with
  | ⟨0, _⟩ => show win0_7.index t (0 : Fin 2) * 64 + 1 * r.val = r.val; omega
  | ⟨1, _⟩ => show win0_7.index t (1 : Fin 2) * 64 + 1 * k.val = k.val; omega

/-- Window 8 is its whole array at every point. -/
theorem blk_b1 (c : Dev nD) (t : Fin cfg0.N) (r : Fin 1) (k : Fin 64) :
    iblk m c 8 t (ix2 r k) = aB1 m c (ix2 r k) := by
  obtain ⟨-, -, -, -, -, -, h3_0, h3_1, h4_0, h4_1, h5_0, h5_1, h6_0, h6_1, h7_0, h7_1, h8_0, h8_1, h9_0, h9_1, h10_0, h10_1, h11_0, h11_1, h12_0, h12_1, -⟩ := idx_facts t
  show aB1 m c (((cfg0.win 8).blk t).view.emb (ix2 r k)) = aB1 m c (ix2 r k)
  refine congrArg (aB1 m c) (funext fun a => Fin.ext ?_)
  match a with
  | ⟨0, _⟩ => show win0_8.index t (0 : Fin 2) * 1 + 1 * r.val = r.val; omega
  | ⟨1, _⟩ => show win0_8.index t (1 : Fin 2) * 64 + 1 * k.val = k.val; omega

/-- Window 9 is its whole array at every point. -/
theorem blk_w2 (c : Dev nD) (t : Fin cfg0.N) (r : Fin 64) (k : Fin 64) :
    iblk m c 9 t (ix2 r k) = aW2 m c (ix2 r k) := by
  obtain ⟨-, -, -, -, -, -, h3_0, h3_1, h4_0, h4_1, h5_0, h5_1, h6_0, h6_1, h7_0, h7_1, h8_0, h8_1, h9_0, h9_1, h10_0, h10_1, h11_0, h11_1, h12_0, h12_1, -⟩ := idx_facts t
  show aW2 m c (((cfg0.win 9).blk t).view.emb (ix2 r k)) = aW2 m c (ix2 r k)
  refine congrArg (aW2 m c) (funext fun a => Fin.ext ?_)
  match a with
  | ⟨0, _⟩ => show win0_9.index t (0 : Fin 2) * 64 + 1 * r.val = r.val; omega
  | ⟨1, _⟩ => show win0_9.index t (1 : Fin 2) * 64 + 1 * k.val = k.val; omega

/-- Window 10 is its whole array at every point. -/
theorem blk_b2 (c : Dev nD) (t : Fin cfg0.N) (r : Fin 1) (k : Fin 64) :
    iblk m c 10 t (ix2 r k) = aB2 m c (ix2 r k) := by
  obtain ⟨-, -, -, -, -, -, h3_0, h3_1, h4_0, h4_1, h5_0, h5_1, h6_0, h6_1, h7_0, h7_1, h8_0, h8_1, h9_0, h9_1, h10_0, h10_1, h11_0, h11_1, h12_0, h12_1, -⟩ := idx_facts t
  show aB2 m c (((cfg0.win 10).blk t).view.emb (ix2 r k)) = aB2 m c (ix2 r k)
  refine congrArg (aB2 m c) (funext fun a => Fin.ext ?_)
  match a with
  | ⟨0, _⟩ => show win0_10.index t (0 : Fin 2) * 1 + 1 * r.val = r.val; omega
  | ⟨1, _⟩ => show win0_10.index t (1 : Fin 2) * 64 + 1 * k.val = k.val; omega

/-- Window 11 is its whole array at every point. -/
theorem blk_wo (c : Dev nD) (t : Fin cfg0.N) (r : Fin 64) (k : Fin 1) :
    iblk m c 11 t (ix2 r k) = aWo m c (ix2 r k) := by
  obtain ⟨-, -, -, -, -, -, h3_0, h3_1, h4_0, h4_1, h5_0, h5_1, h6_0, h6_1, h7_0, h7_1, h8_0, h8_1, h9_0, h9_1, h10_0, h10_1, h11_0, h11_1, h12_0, h12_1, -⟩ := idx_facts t
  show aWo m c (((cfg0.win 11).blk t).view.emb (ix2 r k)) = aWo m c (ix2 r k)
  refine congrArg (aWo m c) (funext fun a => Fin.ext ?_)
  match a with
  | ⟨0, _⟩ => show win0_11.index t (0 : Fin 2) * 64 + 1 * r.val = r.val; omega
  | ⟨1, _⟩ => show win0_11.index t (1 : Fin 2) * 1 + 1 * k.val = k.val; omega

/-- Window 12 is its whole array at every point. -/
theorem blk_bo (c : Dev nD) (t : Fin cfg0.N) (r : Fin 1) (k : Fin 1) :
    iblk m c 12 t (ix2 r k) = aBo m c (ix2 r k) := by
  obtain ⟨-, -, -, -, -, -, h3_0, h3_1, h4_0, h4_1, h5_0, h5_1, h6_0, h6_1, h7_0, h7_1, h8_0, h8_1, h9_0, h9_1, h10_0, h10_1, h11_0, h11_1, h12_0, h12_1, -⟩ := idx_facts t
  show aBo m c (((cfg0.win 12).blk t).view.emb (ix2 r k)) = aBo m c (ix2 r k)
  refine congrArg (aBo m c) (funext fun a => Fin.ext ?_)
  match a with
  | ⟨0, _⟩ => show win0_12.index t (0 : Fin 2) * 1 + 1 * r.val = r.val; omega
  | ⟨1, _⟩ => show win0_12.index t (1 : Fin 2) * 1 + 1 * k.val = k.val; omega

/-- The output block's row `r` sits at row `4096·t + r` of the output array. -/
theorem emb_out (t : Fin cfg0.N) (r : Fin 4096) :
    ((cfg0.win 13).blk t).view.emb (ix2 r (0 : Fin 1)) = ix2 (rowOf t r) (0 : Fin 1) := by
  have h := idx_facts t
  have h13_0 : win0_13.index t (0 : Fin 2) = t.val := h.2.2.2.2.2.2.2.2.2.2.2.2.2.2.2.2.2.2.2.2.2.2.2.2.2.2.1
  have h13_1 : win0_13.index t (1 : Fin 2) = 0 := h.2.2.2.2.2.2.2.2.2.2.2.2.2.2.2.2.2.2.2.2.2.2.2.2.2.2.2
  funext a
  apply Fin.ext
  match a with
  | ⟨0, _⟩ => show win0_13.index t (0 : Fin 2) * 4096 + 1 * r.val = t.val * 4096 + r.val; omega
  | ⟨1, _⟩ => show win0_13.index t (1 : Fin 2) * 1 + 1 * 0 = 0; omega

/-! ## What a point writes back, and the array after the run -/

/-- WHAT POINT `t` WRITES BACK is block `t` of `G`. -/
theorem flushed13_eq (c : Dev nD) (t : Fin cfg0.N) :
    (dats m 0 c).flushed 13 t = ((cfg0.win 13).blk t).view.read (Elt Ideal) (G m c) := by
  show (cfg0.win 13).cut (grid0.coords t) ((dats m 0 c).after 13 t) = _
  rw [after0_13]
  funext j
  obtain ⟨r, q, rfl⟩ : ∃ (r : Fin 4096) (q : Fin 1), j = ix2 r q := ⟨j 0, j 1, eq_ix2 j⟩
  obtain rfl : q = 0 := Subsingleton.elim _ _
  show out0_13 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 r (0 : Fin 1))
    = G m c (((cfg0.win 13).blk t).view.emb (ix2 r (0 : Fin 1)))
  refine (Cert.KernelIdeal.BlockValue.out0_13_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) r).trans ?_
  rw [emb_out t r]
  show _ = rowVal m c (rowOf t r)
  unfold rowVal
  simp only [blk_lat m c t r, blk_pos m c t r, blk_dir m c t r, blk_wl m c t, blk_wp m c t, blk_wd m c t, blk_bin m c t, blk_w1 m c t,
    blk_b1 m c t, blk_w2 m c t, blk_b2 m c t, blk_wo m c t, blk_bo m c t]

/-- An index of the output array is in point `t`'s block iff each coordinate is in the block's range on its axis. -/
theorem mem_blk13 (t : Fin cfg0.N) (i : S1503232x1.Idx) :
    i ∈ ((cfg0.win 13).blk t).view.set ↔ ∀ a : Fin 2, win0_13.index t a * S4096x1.size a ≤ (i a).val ∧ (i a).val < win0_13.index t a * S4096x1.size a + S4096x1.size a := by
  show i ∈ ((View.whole main_v43).slice (win0_13.rect t)).set ↔ _
  rw [View.set_slice_whole, Rect.mem_set_unit]
  exact Iff.rfl

/-- Every row lies in the block of its quotient by 4096. -/
theorem cover13 (i : S1503232x1.Idx) : ∃ t : Fin cfg0.N, (cfg0.win 13).flush t = true ∧ i ∈ ((cfg0.win 13).blk t).view.set := by
  have hi0 : (i 0).val < 1503232 := (i 0).isLt
  have hi1 : (i 1).val < 1 := (i 1).isLt
  have ht : (i 0).val / 4096 < 367 := by omega
  have h := idx_facts ⟨(i 0).val / 4096, ht⟩
  have h13_0 : win0_13.index ⟨(i 0).val / 4096, ht⟩ (0 : Fin 2) = (i 0).val / 4096 := h.2.2.2.2.2.2.2.2.2.2.2.2.2.2.2.2.2.2.2.2.2.2.2.2.2.2.1
  have h13_1 : win0_13.index ⟨(i 0).val / 4096, ht⟩ (1 : Fin 2) = 0 := h.2.2.2.2.2.2.2.2.2.2.2.2.2.2.2.2.2.2.2.2.2.2.2.2.2.2.2
  refine ⟨⟨(i 0).val / 4096, ht⟩, flush0_13 _, ?_⟩
  rw [mem_blk13]
  intro a
  match a with
  | ⟨0, _⟩ =>
    show win0_13.index ⟨(i 0).val / 4096, ht⟩ (0 : Fin 2) * 4096 ≤ (i 0).val ∧ (i 0).val < win0_13.index ⟨(i 0).val / 4096, ht⟩ (0 : Fin 2) * 4096 + 4096
    omega
  | ⟨1, _⟩ =>
    show win0_13.index ⟨(i 0).val / 4096, ht⟩ (1 : Fin 2) * 1 ≤ (i 1).val ∧ (i 1).val < win0_13.index ⟨(i 0).val / 4096, ht⟩ (1 : Fin 2) * 1 + 1
    omega

/-- THE ARRAY after the run is `G`. -/
theorem final13 (c : Dev nD) : (dats m 0 c).arrAt 13 cfg0.N = G m c :=
  (dats m 0 c).arrAt_eq_of_cover 13 (G m c) (fun t _ => flushed13_eq m c t) cover13

end Cert.KernelIdeal.KernelArray

end
-- ==== Proof.KernelHost.lean ====
/-
  The arrays the kernel's region finds, as host terms.

  Before the region the host pads each gathered feature array from 1500000 to 1503232 rows with a constant, pads the
  target ids with the constant 200000, cuts the 70 × 64 first matrix into its row blocks 0–63, 64–66, 67–69 and
  reshapes each bias vector into a one-row matrix. A padded array read at a row below 1500000 is the array padded; a
  row block of a matrix read at (k, j) is the matrix at (offset + k, j); a one-row reshape of a vector read at (0, j) is
  the vector at j.
-/
import proofs.«141471_j79121887527504_1_alg».proof.Proof.Gen.KernelIdeal.Frame
import Idealize.ShloMosaic.Lib.KernelVsHost
import Idealize.ShloMosaic.Lib.ValueLayout
import Idealize.ShloMosaic.Lib.StableHlo.Run

set_option maxRecDepth 16384

noncomputable section

namespace Cert.KernelIdeal.KernelHost

open Idealize.ShloMosaic Idealize.ShloMosaic.TcCoe Idealize.ShloMosaic.StableHlo Idealize.SL.Sem Cert.KernelIdeal Cert.KernelIdeal.Gen
open Idealize.ShloMosaic.ValueIdx

variable {F : FTy → Type} [FloatOps F]
variable (m : (ℓ : Loc nD τ sig) → Buf (Elt F) ℓ)

/-- The buffers after the first stretch of host operations (slices, index wraps, gathers). -/
abbrev A0 (c : Dev nD) : Valuation τ sig (Elt F) := StableHlo.after hostOps0 (fun b => m (c, b))

/-- The later stretches of host operations before the region: the pads, the weight cuts, the bias reshapes. -/
abbrev later : List (List (HloOp τ sig (Elt F))) :=
  [hostOps0_1, hostOps0_2, hostOps0_3, hostOps0_4, hostOps0_5, hostOps0_6, hostOps0_7, hostOps0_8]

/-- The region-entry contents are the later stretches run from the first stretch's. -/
theorem V0_eq (c : Dev nD) : V0 m c = StableHlo.after (List.flatten (later (F := F))) (A0 m c) :=
  StableHlo.after_append hostOps0 (List.flatten (later (F := F))) (fun b => m (c, b))

/-- Everything before the last stretch (the weight cuts and bias reshapes). -/
abbrev B0 (c : Dev nD) : Valuation τ sig (Elt F) :=
  StableHlo.after (List.flatten [hostOps0, hostOps0_1, hostOps0_2, hostOps0_3, hostOps0_4, hostOps0_5, hostOps0_6, hostOps0_7]) (fun b => m (c, b))

/-- The region-entry contents are the last stretch run from there. -/
theorem V0_eq_last (c : Dev nD) : V0 m c = StableHlo.after hostOps0_8 (B0 m c) := by
  have e : (List.flatten [hostOps0, hostOps0_1, hostOps0_2, hostOps0_3, hostOps0_4, hostOps0_5, hostOps0_6, hostOps0_7, hostOps0_8] : List (HloOp τ sig (Elt F)))
      = List.flatten [hostOps0, hostOps0_1, hostOps0_2, hostOps0_3, hostOps0_4, hostOps0_5, hostOps0_6, hostOps0_7] ++ hostOps0_8 := by
    rw [show ([hostOps0, hostOps0_1, hostOps0_2, hostOps0_3, hostOps0_4, hostOps0_5, hostOps0_6, hostOps0_7, hostOps0_8] : List (List (HloOp τ sig (Elt F))))
      = [hostOps0, hostOps0_1, hostOps0_2, hostOps0_3, hostOps0_4, hostOps0_5, hostOps0_6, hostOps0_7] ++ [hostOps0_8] from rfl,
      List.flatten_append, List.flatten_singleton]
  show StableHlo.after _ (fun b => m (c, b)) = _
  rw [e, StableHlo.after_append]

end Cert.KernelIdeal.KernelHost

end
-- ==== Proof.KernelPadsA.lean ====
/-
  The padded latents and relative positions: each is the pad of the gathered array, so a row below 1500000 is the
  gathered array's row.
-/
import proofs.«141471_j79121887527504_1_alg».proof.Proof.KernelHost

set_option maxRecDepth 16384

noncomputable section

namespace Cert.KernelIdeal.KernelPadsA

open Idealize.ShloMosaic Idealize.ShloMosaic.TcCoe Idealize.ShloMosaic.StableHlo Idealize.SL.Sem Cert.KernelIdeal Cert.KernelIdeal.Gen
open Idealize.ShloMosaic.ValueIdx Cert.KernelIdeal.KernelHost

variable {F : FTy → Type} [FloatOps F]
variable (m : (ℓ : Loc nD τ sig) → Buf (Elt F) ℓ)

set_option maxHeartbeats 4000000 in
/-- The padded latents are the pad of the gathered latents. -/
theorem v32_pad (c : Dev nD) :
    V m c main_v32 = pad S1503232x64 ![0, 0] ![3232, 0] ![0, 0] (V m c main_v9) (V m c main_call0_v0) pads_S1500000x64_S1503232x64_032320_000 h_S_ := by
  show V0 m c (Proc.devRef .tc main_v32) = pad S1503232x64 ![0, 0] ![3232, 0] ![0, 0] (V0 m c (Proc.devRef .tc main_v9)) (V0 m c (Proc.devRef .tc main_call0_v0)) pads_S1500000x64_S1503232x64_032320_000 h_S_
  rw [V0_eq]
  generalize A0 m c = A
  simp only [later, hostOps0_1, hostOps0_2, hostOps0_3, hostOps0_4, hostOps0_5, hostOps0_6, hostOps0_7, hostOps0_8,
    List.flatten_cons, List.flatten_nil, List.append_nil, List.cons_append, List.nil_append]
  after_results
  rfl

set_option maxHeartbeats 4000000 in
/-- The padded relative positions are the pad of the relative positions. -/
theorem v33_pad (c : Dev nD) :
    V m c main_v33 = pad S1503232x3 ![0, 0] ![3232, 0] ![0, 0] (V m c main_v24) (V m c main_call1_v0) pads_S1500000x3_S1503232x3_032320_000 h_S_ := by
  show V0 m c (Proc.devRef .tc main_v33) = pad S1503232x3 ![0, 0] ![3232, 0] ![0, 0] (V0 m c (Proc.devRef .tc main_v24)) (V0 m c (Proc.devRef .tc main_call1_v0)) pads_S1500000x3_S1503232x3_032320_000 h_S_
  rw [V0_eq]
  generalize A0 m c = A
  simp only [later, hostOps0_1, hostOps0_2, hostOps0_3, hostOps0_4, hostOps0_5, hostOps0_6, hostOps0_7, hostOps0_8,
    List.flatten_cons, List.flatten_nil, List.append_nil, List.cons_append, List.nil_append]
  after_results
  rfl

/-- A row of the padded latents below 1500000 is the gathered latents' row. -/
theorem lat_row (c : Dev nD) (e : Fin 1500000) (k : Fin 64) :
    V m c main_v32 (ix2 (Fin.castLE (by omega : 1500000 ≤ 1503232) e) k) = V m c main_v9 (ix2 e k) := by
  rw [v32_pad m c]
  exact pad_apply_of_inside _ _ _ _ _ _ h_S_ _ (ix2 e k) (fun a => by
    match a with
    | ⟨0, _⟩ => show e.val = 0 + e.val * (0 + 1); omega
    | ⟨1, _⟩ => show k.val = 0 + k.val * (0 + 1); omega)

/-- A row of the padded relative positions below 1500000 is the relative positions' row. -/
theorem pos_row (c : Dev nD) (e : Fin 1500000) (k : Fin 3) :
    V m c main_v33 (ix2 (Fin.castLE (by omega : 1500000 ≤ 1503232) e) k) = V m c main_v24 (ix2 e k) := by
  rw [v33_pad m c]
  exact pad_apply_of_inside _ _ _ _ _ _ h_S_ _ (ix2 e k) (fun a => by
    match a with
    | ⟨0, _⟩ => show e.val = 0 + e.val * (0 + 1); omega
    | ⟨1, _⟩ => show k.val = 0 + k.val * (0 + 1); omega)

end Cert.KernelIdeal.KernelPadsA

end
-- ==== Proof.KernelPadsB.lean ====
/-
  The padded directions and the padded target ids. The ids are padded with the constant 200000, one past the last
  target, so a padded entry names no target.
-/
import proofs.«141471_j79121887527504_1_alg».proof.Proof.KernelHost

set_option maxRecDepth 16384

noncomputable section

namespace Cert.KernelIdeal.KernelPadsB

open Idealize.ShloMosaic Idealize.ShloMosaic.TcCoe Idealize.ShloMosaic.StableHlo Idealize.SL.Sem Cert.KernelIdeal Cert.KernelIdeal.Gen
open Idealize.ShloMosaic.ValueIdx Cert.KernelIdeal.KernelHost

variable {F : FTy → Type} [FloatOps F]
variable (m : (ℓ : Loc nD τ sig) → Buf (Elt F) ℓ)

set_option maxHeartbeats 4000000 in
/-- The padded directions are the pad of the gathered directions. -/
theorem v34_pad (c : Dev nD) :
    V m c main_v34 = pad S1503232x3 ![0, 0] ![3232, 0] ![0, 0] (V m c main_v31) (V m c main_call2_v0) pads_S1500000x3_S1503232x3_032320_000 h_S_ := by
  show V0 m c (Proc.devRef .tc main_v34) = pad S1503232x3 ![0, 0] ![3232, 0] ![0, 0] (V0 m c (Proc.devRef .tc main_v31)) (V0 m c (Proc.devRef .tc main_call2_v0)) pads_S1500000x3_S1503232x3_032320_000 h_S_
  rw [V0_eq]
  generalize A0 m c = A
  simp only [later, hostOps0_1, hostOps0_2, hostOps0_3, hostOps0_4, hostOps0_5, hostOps0_6, hostOps0_7, hostOps0_8,
    List.flatten_cons, List.flatten_nil, List.append_nil, List.cons_append, List.nil_append]
  after_results
  rfl

set_option maxHeartbeats 4000000 in
/-- The padded ids are the pad of the ids. -/
theorem v35_pad (c : Dev nD) :
    V m c main_v35 = pad S1503232 ![0] ![3232] ![0] (V m c main_arg4) (V m c main_call3_v0) pads_S1500000_S1503232_032320 h_S_ := by
  show V0 m c (Proc.devRef .tc main_v35) = pad S1503232 ![0] ![3232] ![0] (V0 m c (Proc.devRef .tc main_arg4)) (V0 m c (Proc.devRef .tc main_call3_v0)) pads_S1500000_S1503232_032320 h_S_
  rw [V0_eq]
  generalize A0 m c = A
  simp only [later, hostOps0_1, hostOps0_2, hostOps0_3, hostOps0_4, hostOps0_5, hostOps0_6, hostOps0_7, hostOps0_8,
    List.flatten_cons, List.flatten_nil, List.append_nil, List.cons_append, List.nil_append]
  after_results
  rfl

set_option maxHeartbeats 4000000 in
/-- The ids' padding value is the constant 200000. -/
theorem call3_const (c : Dev nD) :
    V m c main_call3_v0 = constantI S_ 32 200000#32 := by
  show V0 m c (Proc.devRef .tc main_call3_v0) = constantI S_ 32 200000#32
  rw [V0_eq]
  generalize A0 m c = A
  simp only [later, hostOps0_1, hostOps0_2, hostOps0_3, hostOps0_4, hostOps0_5, hostOps0_6, hostOps0_7, hostOps0_8,
    List.flatten_cons, List.flatten_nil, List.append_nil, List.cons_append, List.nil_append]
  after_results
  rfl

/-- A row of the padded directions below 1500000 is the gathered directions' row. -/
theorem dir_row (c : Dev nD) (e : Fin 1500000) (k : Fin 3) :
    V m c main_v34 (ix2 (Fin.castLE (by omega : 1500000 ≤ 1503232) e) k) = V m c main_v31 (ix2 e k) := by
  rw [v34_pad m c]
  exact pad_apply_of_inside _ _ _ _ _ _ h_S_ _ (ix2 e k) (fun a => by
    match a with
    | ⟨0, _⟩ => show e.val = 0 + e.val * (0 + 1); omega
    | ⟨1, _⟩ => show k.val = 0 + k.val * (0 + 1); omega)

/-- An entry of the padded ids below 1500000 is the id. -/
theorem ids_row (c : Dev nD) (e : Fin 1500000) :
    V m c main_v35 (ix1 (Fin.castLE (by omega : 1500000 ≤ 1503232) e)) = V m c main_arg4 (ix1 e) := by
  rw [v35_pad m c]
  exact pad_apply_of_inside _ _ _ _ _ _ h_S_ _ (ix1 e) (fun a => by
    match a with
    | ⟨0, _⟩ => show e.val = 0 + e.val * (0 + 1); omega)

/-- An entry of the padded ids from 1500000 on is 200000. -/
theorem ids_tail (c : Dev nD) (e' : Fin 1503232) (h : 1500000 ≤ e'.val) :
    V m c main_v35 (ix1 e') = 200000#32 := by
  rw [v35_pad m c, call3_const m c]
  refine (pad_apply_of_not_inside _ _ _ _ _ _ h_S_ (ix1 e') (0 : Fin 1) (fun hin => ?_)).trans rfl
  have h3 : (e'.val - 0) / (0 + 1) < 1500000 := hin.2.2
  omega

end Cert.KernelIdeal.KernelPadsB

end
-- ==== Proof.KernelWeights.lean ====
/-
  The weight windows' arrays: the first matrix's three row blocks are slices of the 70 × 64 argument at row offsets 0, 64
  and 67, and each bias row is its vector reshaped to one row.
-/
import proofs.«141471_j79121887527504_1_alg».proof.Proof.KernelHost

set_option maxRecDepth 16384

noncomputable section

namespace Cert.KernelIdeal.KernelWeights

open Idealize.ShloMosaic Idealize.ShloMosaic.TcCoe Idealize.ShloMosaic.StableHlo Idealize.SL.Sem Cert.KernelIdeal Cert.KernelIdeal.Gen
open Idealize.ShloMosaic.ValueIdx Cert.KernelIdeal.KernelHost

variable {F : FTy → Type} [FloatOps F]
variable (m : (ℓ : Loc nD τ sig) → Buf (Elt F) ℓ)

set_option maxHeartbeats 4000000 in
/-- Rows 0–63 of the first matrix. -/
theorem v36_slice (c : Dev nD) :
    V m c main_v36 = extractStridedSlice S64x64 ![0, 0] (V m c main_arg6) slices_S70x64_S64x64_0_0 := by
  show V0 m c (Proc.devRef .tc main_v36) = extractStridedSlice S64x64 ![0, 0] (V0 m c (Proc.devRef .tc main_arg6)) slices_S70x64_S64x64_0_0
  rw [V0_eq_last]
  generalize B0 m c = B
  simp only [hostOps0_8]
  after_results
  all_goals rfl

set_option maxHeartbeats 4000000 in
/-- Rows 64–66 of the first matrix. -/
theorem v37_slice (c : Dev nD) :
    V m c main_v37 = extractStridedSlice S3x64 ![64, 0] (V m c main_arg6) slices_S70x64_S3x64_64_0 := by
  show V0 m c (Proc.devRef .tc main_v37) = extractStridedSlice S3x64 ![64, 0] (V0 m c (Proc.devRef .tc main_arg6)) slices_S70x64_S3x64_64_0
  rw [V0_eq_last]
  generalize B0 m c = B
  simp only [hostOps0_8]
  after_results
  all_goals rfl

set_option maxHeartbeats 4000000 in
/-- Rows 67–69 of the first matrix. -/
theorem v38_slice (c : Dev nD) :
    V m c main_v38 = extractStridedSlice S3x64 ![67, 0] (V m c main_arg6) slices_S70x64_S3x64_67_0 := by
  show V0 m c (Proc.devRef .tc main_v38) = extractStridedSlice S3x64 ![67, 0] (V0 m c (Proc.devRef .tc main_arg6)) slices_S70x64_S3x64_67_0
  rw [V0_eq_last]
  generalize B0 m c = B
  simp only [hostOps0_8]
  after_results
  all_goals rfl

set_option maxHeartbeats 4000000 in
/-- The first bias as one row. -/
theorem v39_reshape (c : Dev nD) :
    V m c main_v39 = shapeCast S1x64 (V m c main_arg7) shapeCasts_S64_S1x64 := by
  show V0 m c (Proc.devRef .tc main_v39) = shapeCast S1x64 (V0 m c (Proc.devRef .tc main_arg7)) shapeCasts_S64_S1x64
  rw [V0_eq_last]
  generalize B0 m c = B
  simp only [hostOps0_8]
  after_results
  all_goals rfl

set_option maxHeartbeats 4000000 in
/-- The second bias as one row. -/
theorem v40_reshape (c : Dev nD) :
    V m c main_v40 = shapeCast S1x64 (V m c main_arg9) shapeCasts_S64_S1x64 := by
  show V0 m c (Proc.devRef .tc main_v40) = shapeCast S1x64 (V0 m c (Proc.devRef .tc main_arg9)) shapeCasts_S64_S1x64
  rw [V0_eq_last]
  generalize B0 m c = B
  simp only [hostOps0_8]
  after_results
  all_goals rfl

set_option maxHeartbeats 4000000 in
/-- The third bias as one row. -/
theorem v41_reshape (c : Dev nD) :
    V m c main_v41 = shapeCast S1x64 (V m c main_arg11) shapeCasts_S64_S1x64 := by
  show V0 m c (Proc.devRef .tc main_v41) = shapeCast S1x64 (V0 m c (Proc.devRef .tc main_arg11)) shapeCasts_S64_S1x64
  rw [V0_eq_last]
  generalize B0 m c = B
  simp only [hostOps0_8]
  after_results
  all_goals rfl

set_option maxHeartbeats 4000000 in
/-- The last bias as a 1 × 1 matrix. -/
theorem v42_reshape (c : Dev nD) :
    V m c main_v42 = shapeCast S1x1 (V m c main_arg13) shapeCasts_S1_S1x1 := by
  show V0 m c (Proc.devRef .tc main_v42) = shapeCast S1x1 (V0 m c (Proc.devRef .tc main_arg13)) shapeCasts_S1_S1x1
  rw [V0_eq_last]
  generalize B0 m c = B
  simp only [hostOps0_8]
  after_results
  all_goals rfl

/-- Entry (k, j) of the first row block is entry (k, j) of the matrix. -/
theorem wl_entry (c : Dev nD) (k : Fin 64) (j : Fin 64) :
    V m c main_v36 (ix2 k j) = V m c main_arg6 (ix2 (⟨k.val, by omega⟩ : Fin 70) j) := by
  rw [v36_slice m c]
  exact extractStridedSlice_apply _ _ _ (ix2 k j) _ (fun a => by
    match a with
    | ⟨0, _⟩ => show k.val = 0 + k.val; omega
    | ⟨1, _⟩ => show j.val = 0 + j.val; omega)

/-- Entry (k, j) of the second row block is entry (64 + k, j) of the matrix. -/
theorem wp_entry (c : Dev nD) (k : Fin 3) (j : Fin 64) :
    V m c main_v37 (ix2 k j) = V m c main_arg6 (ix2 (⟨64 + k.val, by omega⟩ : Fin 70) j) := by
  rw [v37_slice m c]
  exact extractStridedSlice_apply _ _ _ (ix2 k j) _ (fun a => by
    match a with
    | ⟨0, _⟩ => show 64 + k.val = 64 + k.val; omega
    | ⟨1, _⟩ => show j.val = 0 + j.val; omega)

/-- Entry (k, j) of the third row block is entry (67 + k, j) of the matrix. -/
theorem wd_entry (c : Dev nD) (k : Fin 3) (j : Fin 64) :
    V m c main_v38 (ix2 k j) = V m c main_arg6 (ix2 (⟨67 + k.val, by omega⟩ : Fin 70) j) := by
  rw [v38_slice m c]
  exact extractStridedSlice_apply _ _ _ (ix2 k j) _ (fun a => by
    match a with
    | ⟨0, _⟩ => show 67 + k.val = 67 + k.val; omega
    | ⟨1, _⟩ => show j.val = 0 + j.val; omega)

/-- Entry (0, j) of the first bias row is entry j of the bias. -/
theorem bin_entry (c : Dev nD) (j : Fin 64) :
    V m c main_v39 (ix2 (0 : Fin 1) j) = V m c main_arg7 (ix1 j) := by
  rw [v39_reshape m c]
  exact shapeCast_apply _ _ (ix2 (0 : Fin 1) j) (ix1 j) (by
    rewrite [Shape.rowMajor_val_one, Shape.rowMajor_val_two]
    show j.val = 0 * 64 + j.val
    omega)

/-- Entry (0, j) of the second bias row is entry j of the bias. -/
theorem b1_entry (c : Dev nD) (j : Fin 64) :
    V m c main_v40 (ix2 (0 : Fin 1) j) = V m c main_arg9 (ix1 j) := by
  rw [v40_reshape m c]
  exact shapeCast_apply _ _ (ix2 (0 : Fin 1) j) (ix1 j) (by
    rewrite [Shape.rowMajor_val_one, Shape.rowMajor_val_two]
    show j.val = 0 * 64 + j.val
    omega)

/-- Entry (0, j) of the third bias row is entry j of the bias. -/
theorem b2_entry (c : Dev nD) (j : Fin 64) :
    V m c main_v41 (ix2 (0 : Fin 1) j) = V m c main_arg11 (ix1 j) := by
  rw [v41_reshape m c]
  exact shapeCast_apply _ _ (ix2 (0 : Fin 1) j) (ix1 j) (by
    rewrite [Shape.rowMajor_val_one, Shape.rowMajor_val_two]
    show j.val = 0 * 64 + j.val
    omega)

/-- The one entry of the last bias. -/
theorem bo_entry (c : Dev nD) (j : Fin 1) :
    V m c main_v42 (ix2 (0 : Fin 1) j) = V m c main_arg13 (ix1 j) := by
  rw [v42_reshape m c]
  exact shapeCast_apply _ _ (ix2 (0 : Fin 1) j) (ix1 j) (by
    rewrite [Shape.rowMajor_val_one, Shape.rowMajor_val_two]
    show j.val = 0 * 1 + j.val
    omega)

end Cert.KernelIdeal.KernelWeights

end
-- ==== Proof.KernelGather.lean ====
/- The gathered arrays the kernel's region finds are the reference's gathered stages.

   Both programs begin with the same host operations on the arguments: three column slices, and four gathers of per-edge
   rows, each through the index wrap `select (idx < 0) (idx + n) idx`. The contents of the kernel's buffers when its
   region is entered are the fold of all the host operations before the region over the launch contents. The fold over a
   concatenation is the fold of the second list over the fold of the first; none of the later operations (the pads, the
   weight slices and reshapes, their constants) writes a gathered array, so each gathered array holds what the first
   stretch left in it; and the first stretch's result at such an array, read off operation by operation, is literally
   the reference's stage of the same arguments: the same slice, wrap, broadcast and gather records applied in the same
   order. Everything is stated for an arbitrary float family. -/
import proofs.«141471_j79121887527504_1_alg».proof.Proof.Gen.KernelIdeal.Frame
import proofs.«141471_j79121887527504_1_alg».proof.Proof.RefRead
import Idealize.ShloMosaic.Lib.StableHlo.Run

noncomputable section

namespace Cert.KernelIdeal.KernelGather

open Idealize.ShloMosaic Idealize.ShloMosaic.TcCoe Idealize.ShloMosaic.StableHlo Idealize.SL.Sem Cert.KernelIdeal Cert.KernelIdeal.Gen

variable {F : FTy → Type} [FloatOps F] (m : (ℓ : Loc nD τ sig) → Buf (Elt F) ℓ)

/-- The contents after the first stretch of host operations (the slices, the index wraps and the gathers) alone. -/
abbrev W0 (c : Dev nD) : Valuation τ sig (Elt F) := StableHlo.after hostOps0 (fun b => m (c, b))

/-- The contents at the region's entry are the later stretches' fold over the first stretch's. -/
theorem V0_cut (c : Dev nD) :
    V0 m c = StableHlo.after (hostOps0_1 ++ (hostOps0_2 ++ (hostOps0_3 ++ (hostOps0_4 ++ (hostOps0_5 ++ (hostOps0_6 ++ (hostOps0_7 ++ hostOps0_8))))))) (W0 m c) := by
  dsimp only [V0]
  simp only [List.flatten_cons, List.flatten_nil, List.append_nil]
  rw [StableHlo.after_append]

/-- No operation after the first stretch writes the array of the gathered latents: the region finds it as the first stretch left it. -/
theorem V_eq_W0_main_v9 (c : Dev nD) : V m c main_v9 = W0 m c (Proc.devRef .tc main_v9) := by
  show V0 m c (Proc.devRef .tc main_v9) = _
  rw [V0_cut]
  exact StableHlo.after_of_forall_not_mem (b := Proc.devRef .tc main_v9) _ _ (List.forall_iff_forall_mem.mp (by
    simp only [hostOps0_1, hostOps0_2, hostOps0_3, hostOps0_4, hostOps0_5, hostOps0_6, hostOps0_7, hostOps0_8, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation after the first stretch writes the array of the relative positions: the region finds it as the first stretch left it. -/
theorem V_eq_W0_main_v24 (c : Dev nD) : V m c main_v24 = W0 m c (Proc.devRef .tc main_v24) := by
  show V0 m c (Proc.devRef .tc main_v24) = _
  rw [V0_cut]
  exact StableHlo.after_of_forall_not_mem (b := Proc.devRef .tc main_v24) _ _ (List.forall_iff_forall_mem.mp (by
    simp only [hostOps0_1, hostOps0_2, hostOps0_3, hostOps0_4, hostOps0_5, hostOps0_6, hostOps0_7, hostOps0_8, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation after the first stretch writes the array of the gathered directions: the region finds it as the first stretch left it. -/
theorem V_eq_W0_main_v31 (c : Dev nD) : V m c main_v31 = W0 m c (Proc.devRef .tc main_v31) := by
  show V0 m c (Proc.devRef .tc main_v31) = _
  rw [V0_cut]
  exact StableHlo.after_of_forall_not_mem (b := Proc.devRef .tc main_v31) _ _ (List.forall_iff_forall_mem.mp (by
    simp only [hostOps0_1, hostOps0_2, hostOps0_3, hostOps0_4, hostOps0_5, hostOps0_6, hostOps0_7, hostOps0_8, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- The first stretch leaves, in the latents' array, the gather of the latent rows at the wrapped source indices:
    the reference's gathered-latents stage, term for term. -/
theorem W0_main_v9 (c : Dev nD) : W0 m c (Proc.devRef .tc main_v9) = Cert.ReferenceIdeal.ReadP.val_main_v24 (F := F) (m ((c : Thread nD τ).loc main_arg1)) (m ((c : Thread nD τ).loc main_arg5)) := by
  dsimp only [W0, hostOps0]
  after_results
  rfl

set_option maxHeartbeats 2000000 in
/-- The first stretch leaves, in the relative positions' array, the gather of the sliced target positions at the wrapped
    target indices minus the gather of the sliced source positions at the wrapped source indices: the reference's
    relative-positions stage, term for term. -/
theorem W0_main_v24 (c : Dev nD) : W0 m c (Proc.devRef .tc main_v24) = Cert.ReferenceIdeal.ReadP.val_main_v17 (F := F) (m ((c : Thread nD τ).loc main_arg0)) (m ((c : Thread nD τ).loc main_arg3)) (m ((c : Thread nD τ).loc main_arg4)) (m ((c : Thread nD τ).loc main_arg5)) := by
  dsimp only [W0, hostOps0]
  after_results
  rfl

set_option maxHeartbeats 2000000 in
/-- The first stretch leaves, in the directions' array, the gather of the sliced directions at the wrapped source
    indices: the reference's gathered-directions stage, term for term. -/
theorem W0_main_v31 (c : Dev nD) : W0 m c (Proc.devRef .tc main_v31) = Cert.ReferenceIdeal.ReadP.val_main_v31 (F := F) (m ((c : Thread nD τ).loc main_arg2)) (m ((c : Thread nD τ).loc main_arg5)) := by
  dsimp only [W0, hostOps0]
  after_results
  rfl

/-- The gathered latents the region finds are the reference's gathered-latents stage of the same arguments. -/
theorem V_main_v9 (c : Dev nD) : V m c main_v9 = Cert.ReferenceIdeal.ReadP.val_main_v24 (F := F) (m ((c : Thread nD τ).loc main_arg1)) (m ((c : Thread nD τ).loc main_arg5)) :=
  (V_eq_W0_main_v9 m c).trans (W0_main_v9 m c)

/-- The relative positions the region finds are the reference's relative-positions stage of the same arguments. -/
theorem V_main_v24 (c : Dev nD) : V m c main_v24 = Cert.ReferenceIdeal.ReadP.val_main_v17 (F := F) (m ((c : Thread nD τ).loc main_arg0)) (m ((c : Thread nD τ).loc main_arg3)) (m ((c : Thread nD τ).loc main_arg4)) (m ((c : Thread nD τ).loc main_arg5)) :=
  (V_eq_W0_main_v24 m c).trans (W0_main_v24 m c)

/-- The gathered directions the region finds are the reference's gathered-directions stage of the same arguments. -/
theorem V_main_v31 (c : Dev nD) : V m c main_v31 = Cert.ReferenceIdeal.ReadP.val_main_v31 (F := F) (m ((c : Thread nD τ).loc main_arg2)) (m ((c : Thread nD τ).loc main_arg5)) :=
  (V_eq_W0_main_v31 m c).trans (W0_main_v31 m c)

end Cert.KernelIdeal.KernelGather
-- ==== Proof.RefEdge.lean ====
/-
  The reference's per-edge number, read at one edge.

  The reference joins each edge's three gathered feature rows (64, 3 and 3 numbers) into one row of 70, and applies a
  four-layer perceptron to all edges at once: four rows-by-columns products with a bias vector laid along every row,
  the first two followed by a maximum with zero; the last product has one column, and the resulting column matrix is
  reshaped to a vector. On the extended reals each product read at (e, j) is the finite sum over the contracted
  position, a broadcast bias read at (e, j) is the bias at j, and the reshaped vector at e is the column at (e, 0); so
  row e of every layer's output depends on row e of its input only, and edge e's entry of the result is the
  perceptron applied to row e of the joined array. The joined row at column k is the first piece at k for k below 64,
  the second at k - 64 for k from 64 to 66, the third at k - 67 from 67 on; a sum over the 70 joined positions is the
  sum over the three stretches, which turns the first layer over the joined row into the first layer block by block.
  The gathered arrays themselves are never opened.
-/
import proofs.«141471_j79121887527504_1_alg».proof.Proof.RefRead
import proofs.«141471_j79121887527504_1_alg».proof.Proof.Spec
import proofs.«141471_j79121887527504_1_alg».proof.Proof.LibDense

noncomputable section

namespace Cert.ReferenceIdeal.RefEdge

open Idealize.ShloMosaic Idealize.ShloMosaic.ValueIdx Cert.ReferenceIdeal Cert.ReferenceIdeal.Gen Cert.ReferenceIdeal.ReadP

/-! ## Three pieces joined along the columns, read at a column of each stretch -/

section Join

variable {α : Type} {M : ℕ}

/-- A column below 64 of the joined array is that column of the first piece. -/
theorem join_left (A : (⟨2, ![M, 64]⟩ : Shape).Idx → α) (B C : (⟨2, ![M, 3]⟩ : Shape).Idx → α)
    (h : Shape.Concatenates [(⟨2, ![M, 64]⟩ : Shape), ⟨2, ![M, 3]⟩, ⟨2, ![M, 3]⟩] ⟨2, ![M, 70]⟩ 1) (e : Fin M) (k : Fin 64) :
    concatenate (⟨2, ![M, 70]⟩ : Shape) 1 [⟨⟨2, ![M, 64]⟩, A⟩, ⟨⟨2, ![M, 3]⟩, B⟩, ⟨⟨2, ![M, 3]⟩, C⟩] h
        (ix2 e (⟨k.val, by omega⟩ : Fin 70)) = A (ix2 e k) :=
  concatenate_apply_piece (t := ⟨2, ![M, 70]⟩) 1 [⟨⟨2, ![M, 64]⟩, A⟩, ⟨⟨2, ![M, 3]⟩, B⟩, ⟨⟨2, ![M, 3]⟩, C⟩] h
    (ix2 e (⟨k.val, by omega⟩ : Fin 70)) 0 (by show (0 : ℕ) < 3; omega) ⟨2, ![M, 64]⟩ A rfl rfl 0 rfl (ix2 e k)
    (fun b hb => by
      match b with
      | ⟨0, _⟩ => rfl
      | ⟨1, _⟩ => exact absurd rfl hb)
    (by show 0 + k.val = k.val; omega)

/-- Column 64 + k of the joined array is column k of the second piece. -/
theorem join_mid (A : (⟨2, ![M, 64]⟩ : Shape).Idx → α) (B C : (⟨2, ![M, 3]⟩ : Shape).Idx → α)
    (h : Shape.Concatenates [(⟨2, ![M, 64]⟩ : Shape), ⟨2, ![M, 3]⟩, ⟨2, ![M, 3]⟩] ⟨2, ![M, 70]⟩ 1) (e : Fin M) (k : Fin 3) :
    concatenate (⟨2, ![M, 70]⟩ : Shape) 1 [⟨⟨2, ![M, 64]⟩, A⟩, ⟨⟨2, ![M, 3]⟩, B⟩, ⟨⟨2, ![M, 3]⟩, C⟩] h
        (ix2 e (⟨64 + k.val, by omega⟩ : Fin 70)) = B (ix2 e k) :=
  concatenate_apply_piece (t := ⟨2, ![M, 70]⟩) 1 [⟨⟨2, ![M, 64]⟩, A⟩, ⟨⟨2, ![M, 3]⟩, B⟩, ⟨⟨2, ![M, 3]⟩, C⟩] h
    (ix2 e (⟨64 + k.val, by omega⟩ : Fin 70)) 1 (by show (1 : ℕ) < 3; omega) ⟨2, ![M, 3]⟩ B rfl rfl 64 rfl (ix2 e k)
    (fun b hb => by
      match b with
      | ⟨0, _⟩ => rfl
      | ⟨1, _⟩ => exact absurd rfl hb)
    rfl

/-- Column 67 + k of the joined array is column k of the third piece. -/
theorem join_right (A : (⟨2, ![M, 64]⟩ : Shape).Idx → α) (B C : (⟨2, ![M, 3]⟩ : Shape).Idx → α)
    (h : Shape.Concatenates [(⟨2, ![M, 64]⟩ : Shape), ⟨2, ![M, 3]⟩, ⟨2, ![M, 3]⟩] ⟨2, ![M, 70]⟩ 1) (e : Fin M) (k : Fin 3) :
    concatenate (⟨2, ![M, 70]⟩ : Shape) 1 [⟨⟨2, ![M, 64]⟩, A⟩, ⟨⟨2, ![M, 3]⟩, B⟩, ⟨⟨2, ![M, 3]⟩, C⟩] h
        (ix2 e (⟨67 + k.val, by omega⟩ : Fin 70)) = C (ix2 e k) :=
  concatenate_apply_piece (t := ⟨2, ![M, 70]⟩) 1 [⟨⟨2, ![M, 64]⟩, A⟩, ⟨⟨2, ![M, 3]⟩, B⟩, ⟨⟨2, ![M, 3]⟩, C⟩] h
    (ix2 e (⟨67 + k.val, by omega⟩ : Fin 70)) 2 (by show (2 : ℕ) < 3; omega) ⟨2, ![M, 3]⟩ C rfl rfl 67 rfl (ix2 e k)
    (fun b hb => by
      match b with
      | ⟨0, _⟩ => rfl
      | ⟨1, _⟩ => exact absurd rfl hb)
    rfl

end Join

/-! ## The host's product, bias and reshape read at an index -/

section Host

variable {M K N : ℕ} {φ₁ φ₂ : FTy}

/-- The host's rows-by-columns product, written with any dimension record that is the plain one, read at (e, j). -/
theorem host_dot_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂) (e : Fin M) (j : Fin N) :
    Host.dotGeneral (F := Ideal) d prec h W (ix2 e j) = ∑ k : Fin K, h (ix2 e k) * W (ix2 k j) := by
  subst hd
  exact Cert.LibDense.dotGeneral_plain_apply prec .single h W e j

/-- The same product when row e of the left operand is known entry by entry. -/
theorem host_dot_row_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂) (e : Fin M) (j : Fin N)
    (row : Fin K → EReal) (hrow : ∀ k, h (ix2 e k) = row k) :
    Host.dotGeneral (F := Ideal) d prec h W (ix2 e j) = ∑ k : Fin K, row k * W (ix2 k j) :=
  (host_dot_apply d hd prec h W e j).trans (Finset.sum_congr rfl fun k _ => congrArg (· * W (ix2 k j)) (hrow k))

/-- A bias vector laid along axis 1 of a one-row matrix, and that row laid down the rows, read at (e, j), is the
    vector's entry j. -/
theorem host_bias_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (e : Fin M) (j : Fin N) :
    broadcastInDim ⟨2, ![M, N]⟩ ![0, 1] h2 (broadcastInDim ⟨2, ![1, N]⟩ ![1] h1 b) (ix2 e j) = b (ix1 j) := by
  refine (broadcastInDim_oneRow_apply h2 (broadcastInDim ⟨2, ![1, N]⟩ ![1] h1 b) e j).trans ?_
  exact broadcastInDim_apply ![1] h1 b (ix2 (0 : Fin 1) j) (ix1 j) (fun a => by
    match a with
    | ⟨0, _⟩ =>
      show j.val = if N = 1 then 0 else j.val
      split
      · have := j.isLt; omega
      · rfl)

/-- A column matrix reshaped to a vector reads, at e, the matrix at (e, 0). -/
theorem reshape_col_apply {α : Type} (y : (⟨2, ![M, 1]⟩ : Shape).Idx → α)
    (h : (⟨2, ![M, 1]⟩ : Shape).ShapeCasts ⟨1, ![M]⟩) (e : Fin M) :
    shapeCast ⟨1, ![M]⟩ y h (ix1 e) = y (ix2 e (0 : Fin 1)) :=
  shapeCast_apply y h (ix1 e) (ix2 e (0 : Fin 1)) (by
    rw [Shape.rowMajor_val_two, Shape.rowMajor_val_one]
    show e.val * 1 + 0 = e.val
    omega)

end Host

/-! ## The reference's stages at edge e -/

section Edge

variable (x0 : (⟨S100000x4, .f32⟩ : BufTy).Contents (Elt Ideal)) (x1 : (⟨S100000x64, .f32⟩ : BufTy).Contents (Elt Ideal)) (x2 : (⟨S100000x4, .f32⟩ : BufTy).Contents (Elt Ideal))
  (x3 : (⟨S200000x4, .f32⟩ : BufTy).Contents (Elt Ideal)) (x4 x5 : (⟨S1500000, .i32⟩ : BufTy).Contents (Elt Ideal)) (x6 : (⟨S70x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal))
  (x12 : (⟨S64x1, .f32⟩ : BufTy).Contents (Elt Ideal)) (x13 : (⟨S1, .f32⟩ : BufTy).Contents (Elt Ideal)) (e : Fin 1500000)

/-- Column k < 64 of edge e's joined row is the gathered latent row's entry k. -/
theorem v32_left (k : Fin 64) :
    val_main_v32 (F := Ideal) x0 x1 x2 x3 x4 x5 (ix2 e (⟨k.val, by omega⟩ : Fin 70)) = val_main_v24 (F := Ideal) x1 x5 (ix2 e k) :=
  join_left (val_main_v24 (F := Ideal) x1 x5) (val_main_v17 (F := Ideal) x0 x3 x4 x5) (val_main_v31 (F := Ideal) x2 x5) concatenates_S1500000x64_S1500000x3_S1500000x3_S1500000x70_d1 e k

/-- Column 64 + k of edge e's joined row is the relative position's entry k. -/
theorem v32_mid (k : Fin 3) :
    val_main_v32 (F := Ideal) x0 x1 x2 x3 x4 x5 (ix2 e (⟨64 + k.val, by omega⟩ : Fin 70)) = val_main_v17 (F := Ideal) x0 x3 x4 x5 (ix2 e k) :=
  join_mid (val_main_v24 (F := Ideal) x1 x5) (val_main_v17 (F := Ideal) x0 x3 x4 x5) (val_main_v31 (F := Ideal) x2 x5) concatenates_S1500000x64_S1500000x3_S1500000x3_S1500000x70_d1 e k

/-- Column 67 + k of edge e's joined row is the direction's entry k. -/
theorem v32_right (k : Fin 3) :
    val_main_v32 (F := Ideal) x0 x1 x2 x3 x4 x5 (ix2 e (⟨67 + k.val, by omega⟩ : Fin 70)) = val_main_v31 (F := Ideal) x2 x5 (ix2 e k) :=
  join_right (val_main_v24 (F := Ideal) x1 x5) (val_main_v17 (F := Ideal) x0 x3 x4 x5) (val_main_v31 (F := Ideal) x2 x5) concatenates_S1500000x64_S1500000x3_S1500000x3_S1500000x70_d1 e k

/-- Edge e's first-layer output, block by block, from its three gathered rows. -/
def row0 : Fin 64 → EReal :=
  Cert.EdgeMlp.layer0 (fun k => val_main_v24 (F := Ideal) x1 x5 (ix2 e k)) (fun k => val_main_v17 (F := Ideal) x0 x3 x4 x5 (ix2 e k)) (fun k => val_main_v31 (F := Ideal) x2 x5 (ix2 e k))
    (fun k j => x6 (ix2 (⟨k.val, by omega⟩ : Fin 70) j)) (fun k j => x6 (ix2 (⟨64 + k.val, by omega⟩ : Fin 70) j)) (fun k j => x6 (ix2 (⟨67 + k.val, by omega⟩ : Fin 70) j)) (fun j => x7 (ix1 j))

/-- Edge e's second-layer output. -/
def row1 : Fin 64 → EReal :=
  Cert.EdgeMlp.layerRelu (row0 x0 x1 x2 x3 x4 x5 x6 x7 e) (fun k j => x8 (ix2 k j)) (fun j => x9 (ix1 j))

/-- Edge e's third-layer output. -/
def row2 : Fin 64 → EReal :=
  Cert.EdgeMlp.layerLin (row1 x0 x1 x2 x3 x4 x5 x6 x7 x8 x9 e) (fun k j => x10 (ix2 k j)) (fun j => x11 (ix1 j))

/-- The first clipped layer at (e, j): the product over the joined row of 70, then the sum split into its stretches. -/
theorem v37_edge (j : Fin 64) :
    val_main_v37 (F := Ideal) x0 x1 x2 x3 x4 x5 x6 x7 (ix2 e j) = row0 x0 x1 x2 x3 x4 x5 x6 x7 e j := by
  have h := Cert.LibDense.host_layer_apply (φ₁ := .f32) (φ₂ := .f32) dot_S1500000x70_S70x64_S1500000x64_1_0_0_1_n_n rfl none
    (val_main_v32 (F := Ideal) x0 x1 x2 x3 x4 x5) x6 x7 bcast_S64_S1x64_1 bcast_S1x64_S1500000x64_0_1 bcast_S_S1500000x64 e j
    (fun k => val_main_v32 (F := Ideal) x0 x1 x2 x3 x4 x5 (ix2 e k)) (fun _ => rfl)
  refine h.trans ?_
  exact Cert.EdgeMlp.layer0cat_eq (fun k => val_main_v32 (F := Ideal) x0 x1 x2 x3 x4 x5 (ix2 e k)) (fun k j => x6 (ix2 k j)) (fun j => x7 (ix1 j))
    (fun k => val_main_v24 (F := Ideal) x1 x5 (ix2 e k)) (fun k => val_main_v17 (F := Ideal) x0 x3 x4 x5 (ix2 e k)) (fun k => val_main_v31 (F := Ideal) x2 x5 (ix2 e k))
    (fun k j => x6 (ix2 (⟨k.val, by omega⟩ : Fin 70) j)) (fun k j => x6 (ix2 (⟨64 + k.val, by omega⟩ : Fin 70) j)) (fun k j => x6 (ix2 (⟨67 + k.val, by omega⟩ : Fin 70) j))
    (v32_left x0 x1 x2 x3 x4 x5 e) (v32_mid x0 x1 x2 x3 x4 x5 e) (v32_right x0 x1 x2 x3 x4 x5 e)
    (fun _ _ => rfl) (fun _ _ => rfl) (fun _ _ => rfl) j

/-- The second clipped layer at (e, j). -/
theorem v42_edge (j : Fin 64) :
    val_main_v42 (F := Ideal) x0 x1 x2 x3 x4 x5 x6 x7 x8 x9 (ix2 e j) = row1 x0 x1 x2 x3 x4 x5 x6 x7 x8 x9 e j :=
  Cert.LibDense.host_layer_apply (φ₁ := .f32) (φ₂ := .f32) dot_S1500000x64_S64x64_S1500000x64_1_0_0_1_n_n rfl none
    (val_main_v37 (F := Ideal) x0 x1 x2 x3 x4 x5 x6 x7) x8 x9 bcast_S64_S1x64_1 bcast_S1x64_S1500000x64_0_1 bcast_S_S1500000x64 e j
    (row0 x0 x1 x2 x3 x4 x5 x6 x7 e) (v37_edge x0 x1 x2 x3 x4 x5 x6 x7 e)

/-- The third layer's product at (e, j). -/
theorem v43_edge (j : Fin 64) :
    val_main_v43 (F := Ideal) x0 x1 x2 x3 x4 x5 x6 x7 x8 x9 x10 (ix2 e j) = ∑ k : Fin 64, row1 x0 x1 x2 x3 x4 x5 x6 x7 x8 x9 e k * x10 (ix2 k j) :=
  host_dot_row_apply (φ₁ := .f32) (φ₂ := .f32) dot_S1500000x64_S64x64_S1500000x64_1_0_0_1_n_n rfl none (val_main_v42 (F := Ideal) x0 x1 x2 x3 x4 x5 x6 x7 x8 x9) x10 e j
    (row1 x0 x1 x2 x3 x4 x5 x6 x7 x8 x9 e) (v42_edge x0 x1 x2 x3 x4 x5 x6 x7 x8 x9 e)

/-- The third layer's bias at (e, j). -/
theorem v45_edge (j : Fin 64) : val_main_v45 (F := Ideal) x11 (ix2 e j) = x11 (ix1 j) :=
  host_bias_apply x11 bcast_S64_S1x64_1 bcast_S1x64_S1500000x64_0_1 e j

/-- The third layer at (e, j). -/
theorem v46_edge (j : Fin 64) :
    val_main_v46 (F := Ideal) x0 x1 x2 x3 x4 x5 x6 x7 x8 x9 x10 x11 (ix2 e j) = row2 x0 x1 x2 x3 x4 x5 x6 x7 x8 x9 x10 x11 e j :=
  (val_main_v46_apply x0 x1 x2 x3 x4 x5 x6 x7 x8 x9 x10 x11 (ix2 e j)).trans
    (congrArg₂ FloatOps.addf (v43_edge x0 x1 x2 x3 x4 x5 x6 x7 x8 x9 x10 e j) (v45_edge x11 e j))

/-- The last layer's product at (e, 0). -/
theorem v47_edge :
    val_main_v47 (F := Ideal) x0 x1 x2 x3 x4 x5 x6 x7 x8 x9 x10 x11 x12 (ix2 e (0 : Fin 1)) = ∑ k : Fin 64, row2 x0 x1 x2 x3 x4 x5 x6 x7 x8 x9 x10 x11 e k * x12 (ix2 k (0 : Fin 1)) :=
  host_dot_row_apply (φ₁ := .f32) (φ₂ := .f32) dot_S1500000x64_S64x1_S1500000x1_1_0_0_1_n_n rfl none (val_main_v46 (F := Ideal) x0 x1 x2 x3 x4 x5 x6 x7 x8 x9 x10 x11) x12 e (0 : Fin 1)
    (row2 x0 x1 x2 x3 x4 x5 x6 x7 x8 x9 x10 x11 e) (v46_edge x0 x1 x2 x3 x4 x5 x6 x7 x8 x9 x10 x11 e)

/-- The last layer's bias at (e, 0). -/
theorem v49_edge : val_main_v49 (F := Ideal) x13 (ix2 e (0 : Fin 1)) = x13 (ix1 (0 : Fin 1)) :=
  host_bias_apply x13 bcast_S1_S1x1_1 bcast_S1x1_S1500000x1_0_1 e (0 : Fin 1)

/-- The reshaped vector at e is the last layer's column at (e, 0). -/
theorem v51_ix :
    val_main_v51 (F := Ideal) x0 x1 x2 x3 x4 x5 x6 x7 x8 x9 x10 x11 x12 x13 (ix1 e) = val_main_v50 (F := Ideal) x0 x1 x2 x3 x4 x5 x6 x7 x8 x9 x10 x11 x12 x13 (ix2 e (0 : Fin 1)) :=
  reshape_col_apply (val_main_v50 (F := Ideal) x0 x1 x2 x3 x4 x5 x6 x7 x8 x9 x10 x11 x12 x13) shapeCasts_S1500000x1_S1500000 e

end Edge

/-- Edge e's entry of the reference's per-edge vector is the network applied to row e of the three gathered feature arrays. -/
theorem val_main_v51_edge (x0 : (⟨S100000x4, .f32⟩ : BufTy).Contents (Elt Ideal)) (x1 : (⟨S100000x64, .f32⟩ : BufTy).Contents (Elt Ideal)) (x2 : (⟨S100000x4, .f32⟩ : BufTy).Contents (Elt Ideal))
    (x3 : (⟨S200000x4, .f32⟩ : BufTy).Contents (Elt Ideal)) (x4 x5 : (⟨S1500000, .i32⟩ : BufTy).Contents (Elt Ideal)) (x6 : (⟨S70x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal))
    (x12 : (⟨S64x1, .f32⟩ : BufTy).Contents (Elt Ideal)) (x13 : (⟨S1, .f32⟩ : BufTy).Contents (Elt Ideal)) (e : Fin 1500000) :
    val_main_v51 (F := Ideal) x0 x1 x2 x3 x4 x5 x6 x7 x8 x9 x10 x11 x12 x13 (ix1 e)
      = Cert.EdgeMlp.mlp (fun k => val_main_v24 (F := Ideal) x1 x5 (ix2 e k)) (fun k => val_main_v17 (F := Ideal) x0 x3 x4 x5 (ix2 e k)) (fun k => val_main_v31 (F := Ideal) x2 x5 (ix2 e k))
          (fun k j => x6 (ix2 (⟨k.val, by omega⟩ : Fin 70) j)) (fun k j => x6 (ix2 (⟨64 + k.val, by omega⟩ : Fin 70) j)) (fun k j => x6 (ix2 (⟨67 + k.val, by omega⟩ : Fin 70) j))
          (fun j => x7 (ix1 j)) (fun k j => x8 (ix2 k j)) (fun j => x9 (ix1 j)) (fun k j => x10 (ix2 k j)) (fun j => x11 (ix1 j))
          (fun k => x12 (ix2 k (0 : Fin 1))) (x13 (ix1 (0 : Fin 1))) :=
  (v51_ix x0 x1 x2 x3 x4 x5 x6 x7 x8 x9 x10 x11 x12 x13 e).trans
    ((val_main_v50_apply x0 x1 x2 x3 x4 x5 x6 x7 x8 x9 x10 x11 x12 x13 (ix2 e (0 : Fin 1))).trans
      (congrArg₂ FloatOps.addf (v47_edge x0 x1 x2 x3 x4 x5 x6 x7 x8 x9 x10 x11 x12 e) (v49_edge x13 e)))

end Cert.ReferenceIdeal.RefEdge

end
-- ==== Proof.BridgeEdge.lean ====
/-
  Edge by edge, the kernel's number is the reference's.

  Row `e` (below 1500000) of each padded feature array is row `e` of the gathered array, which is the reference's gathered
  stage; the weight windows' arrays are the row blocks of the first matrix and the bias vectors laid as rows. The network
  depends on its rows and matrices only through their entries, so the two numbers agree.
-/
import proofs.«141471_j79121887527504_1_alg».proof.Proof.KernelArray
import proofs.«141471_j79121887527504_1_alg».proof.Proof.KernelPadsA
import proofs.«141471_j79121887527504_1_alg».proof.Proof.KernelPadsB
import proofs.«141471_j79121887527504_1_alg».proof.Proof.KernelWeights
import proofs.«141471_j79121887527504_1_alg».proof.Proof.KernelGather
import proofs.«141471_j79121887527504_1_alg».proof.Proof.RefEdge

set_option maxRecDepth 16384

noncomputable section

namespace Cert.EdgeMlp

open Idealize.ShloMosaic

/-- The network depends on its rows, matrices and biases only through their entries. -/
theorem mlp_congr {l l' : Fin 64 → EReal} {p p' d d' : Fin 3 → EReal} {Wl Wl' : Fin 64 → Fin 64 → EReal} {Wp Wp' Wd Wd' : Fin 3 → Fin 64 → EReal}
    {bin bin' : Fin 64 → EReal} {W1 W1' : Fin 64 → Fin 64 → EReal} {b1 b1' : Fin 64 → EReal} {W2 W2' : Fin 64 → Fin 64 → EReal}
    {b2 b2' : Fin 64 → EReal} {Wo Wo' : Fin 64 → EReal} {bo bo' : EReal}
    (hl : ∀ k, l k = l' k) (hp : ∀ k, p k = p' k) (hd : ∀ k, d k = d' k) (hWl : ∀ k j, Wl k j = Wl' k j) (hWp : ∀ k j, Wp k j = Wp' k j)
    (hWd : ∀ k j, Wd k j = Wd' k j) (hbin : ∀ j, bin j = bin' j) (hW1 : ∀ k j, W1 k j = W1' k j) (hb1 : ∀ j, b1 j = b1' j)
    (hW2 : ∀ k j, W2 k j = W2' k j) (hb2 : ∀ j, b2 j = b2' j) (hWo : ∀ k, Wo k = Wo' k) (hbo : bo = bo') :
    mlp l p d Wl Wp Wd bin W1 b1 W2 b2 Wo bo = mlp l' p' d' Wl' Wp' Wd' bin' W1' b1' W2' b2' Wo' bo' := by
  obtain rfl : l = l' := funext hl
  obtain rfl : p = p' := funext hp
  obtain rfl : d = d' := funext hd
  obtain rfl : Wl = Wl' := funext fun k => funext (hWl k)
  obtain rfl : Wp = Wp' := funext fun k => funext (hWp k)
  obtain rfl : Wd = Wd' := funext fun k => funext (hWd k)
  obtain rfl : bin = bin' := funext hbin
  obtain rfl : W1 = W1' := funext fun k => funext (hW1 k)
  obtain rfl : b1 = b1' := funext hb1
  obtain rfl : W2 = W2' := funext fun k => funext (hW2 k)
  obtain rfl : b2 = b2' := funext hb2
  obtain rfl : Wo = Wo' := funext hWo
  subst hbo
  rfl

end Cert.EdgeMlp

namespace Cert.BridgeEdge

open Idealize.ShloMosaic Idealize.ShloMosaic.TcCoe Idealize.SL.Sem Cert.KernelIdeal Cert.KernelIdeal.Gen
open Idealize.ShloMosaic.ValueIdx
open Cert.KernelIdeal.KernelArray Cert.KernelIdeal.KernelPadsA Cert.KernelIdeal.KernelPadsB
open Cert.KernelIdeal.KernelWeights Cert.KernelIdeal.KernelGather

variable (m : (ℓ : Loc nD τ sig) → Buf (Elt Ideal) ℓ)

/-- Edge `e`'s number in the kernel's output array is the reference's per-edge entry at the kernel's arguments. -/
theorem edge_eq (c : Dev nD) (e : Fin 1500000) :
    rowVal m c (Fin.castLE (by omega : 1500000 ≤ 1503232) e)
      = Cert.ReferenceIdeal.ReadP.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (ix1 e) := by
  rw [Cert.ReferenceIdeal.RefEdge.val_main_v51_edge]
  unfold rowVal
  refine Cert.EdgeMlp.mlp_congr ?_ ?_ ?_ ?_ ?_ ?_ ?_ ?_ ?_ ?_ ?_ ?_ ?_
  · intro k; exact (lat_row m c e k).trans (congrFun (V_main_v9 m c) (ix2 e k))
  · intro k; exact (pos_row m c e k).trans (congrFun (V_main_v24 m c) (ix2 e k))
  · intro k; exact (dir_row m c e k).trans (congrFun (V_main_v31 m c) (ix2 e k))
  · intro k j; exact (wl_entry m c k j).trans (congrFun (V_main_arg6 m c) _)
  · intro k j; exact (wp_entry m c k j).trans (congrFun (V_main_arg6 m c) _)
  · intro k j; exact (wd_entry m c k j).trans (congrFun (V_main_arg6 m c) _)
  · intro j; exact (bin_entry m c j).trans (congrFun (V_main_arg7 m c) _)
  · intro k j; exact congrFun (V_main_arg8 m c) (ix2 k j)
  · intro j; exact (b1_entry m c j).trans (congrFun (V_main_arg9 m c) _)
  · intro k j; exact congrFun (V_main_arg10 m c) (ix2 k j)
  · intro j; exact (b2_entry m c j).trans (congrFun (V_main_arg11 m c) _)
  · intro k; exact congrFun (V_main_arg12 m c) (ix2 k (0 : Fin 1))
  · exact (bo_entry m c (0 : Fin 1)).trans (congrFun (V_main_arg13 m c) _)

end Cert.BridgeEdge

end
-- ==== Proof.KernelTail.lean ====
/-
  The host operations after the kernel's region.

  They flatten the [1503232, 1] output array to a vector, add its entries into 200001 per-target sums by the padded ids,
  add ones the same way into per-target counts, keep the first 200000 of each, and return per target the sum divided by
  the count (at least one), or the fill value where the count is not positive.
-/
import proofs.«141471_j79121887527504_1_alg».proof.Proof.Gen.KernelIdeal.Frame
import Idealize.ShloMosaic.Lib.StableHlo.Run

set_option maxRecDepth 16384

noncomputable section

namespace Cert.KernelIdeal.KernelTail

open Idealize.ShloMosaic Idealize.ShloMosaic.TcCoe Idealize.ShloMosaic.StableHlo Idealize.SL.Sem Cert.KernelIdeal Cert.KernelIdeal.Gen
open Idealize.ShloMosaic.Pipeline (Dat)

variable {F : FTy → Type} [FloatOps F]

/-- Per-target sums of the per-edge numbers: the padded scatter into 200001 targets, the first 200000 kept. -/
def sumsK (ids : IVec S1503232 32) (arr : FVec F S1503232x1 .f32) : FVec F S200000 .f32 :=
  extractStridedSlice S200000 ![0]
    (Host.scatterAdd scatter_S200001_S1503232x1_S1503232_n_0_0_1 (broadcastInDim S200001 ![] bcast_S_S200001 (constant S_ .f32 0x00000000#32))
      (broadcastInDim S1503232x1 ![0] bcast_S1503232_S1503232x1_0 ids) (shapeCast S1503232 arr shapeCasts_S1503232x1_S1503232))
    slices_S200001_S200000_0

/-- Per-target counts: ones scattered the same way. -/
def countsK (ids : IVec S1503232 32) : FVec F S200000 .f32 :=
  extractStridedSlice S200000 ![0]
    (Host.scatterAdd scatter_S200001_S1503232x1_S1503232_n_0_0_1 (broadcastInDim S200001 ![] bcast_S_S200001 (constant S_ .f32 0x00000000#32))
      (broadcastInDim S1503232x1 ![0] bcast_S1503232_S1503232x1_0 ids) (broadcastInDim S1503232 ![] bcast_S_S1503232 (constant S_ .f32 0x3F800000#32)))
    slices_S200001_S200000_0

/-- The mean per target from sums and counts, the fill value where the count is not positive. -/
def meanOf (sums counts : FVec F S200000 .f32) : FVec F S200000 .f32 :=
  select (cmpf (F := F) .ogt counts (broadcastInDim S200000 ![] bcast_S_S200000 (constant S_ .f32 0x00000000#32)))
    (Host.divf sums (maximumf counts (broadcastInDim S200000 ![] bcast_S_S200000 (constant S_ .f32 0x3F800000#32))))
    (broadcastInDim S200000 ![] bcast_S_S200000 (id (constant S_ .f32 0xCB189680#32)))

variable (m : (ℓ : Loc nD τ sig) → Buf (Elt F) ℓ)

set_option maxHeartbeats 8000000 in
/-- What the tail leaves in the result buffer, from the output array after the region and the padded ids. -/
theorem tail_eq (dats : (p : Fin 1) → (c : Dev nD) → Dat τ (Elt F) Unit ℕ (UR sig nD τ) ℕ (cfgs p) c) (c : Dev nD) :
    Pipeline.afterTail₀ cfgs dats 0 (V0 m) [hostOps1, hostOps1_1] c main_v59
      = meanOf (sumsK (V m c main_v35) ((dats 0 c).arrAt 13 cfg0.N)) (countsK (V m c main_v35)) := by
  have e43 : Pipeline.withArrays (cfgs 0).spec c (V0 m c) (fun w => (dats 0 c).arrAt w (cfgs 0).N) (Proc.devRef .tc main_v43)
      = (dats 0 c).arrAt 13 cfg0.N := Pipeline.withArrays_arr spec0 launch0.win.arr_inj c _ _ 13
  have e35 : Pipeline.withArrays (cfgs 0).spec c (V0 m c) (fun w => (dats 0 c).arrAt w (cfgs 0).N) (Proc.devRef .tc main_v35)
      = V m c main_v35 :=
    Pipeline.withArrays_of_ne _ c (V0 m c) _ main_v35 (by exact (by decide : ∀ w, Pipeline.arrRef spec0 w ≠ main_v35))
  unfold Pipeline.afterTail₀
  rw [← e43, ← e35]
  generalize Pipeline.withArrays (cfgs 0).spec c (V0 m c) (fun w => (dats 0 c).arrAt w (cfgs 0).N) = W
  simp only [hostOps1, hostOps1_1, List.flatten_cons, List.flatten_nil, List.append_nil, List.cons_append, List.nil_append]
  after_results_simp
  rfl

end Cert.KernelIdeal.KernelTail

end
-- ==== Proof.LibSegSum.lean ====
/-
  The segment sum: a rank-1 accumulating scatter read at one segment, and its padded form.

  A rank-1 add-scatter takes an operand of N numbers, a column of n segment ids and n update values; its dimension
  numbers say that the operand's one axis is the scattered one (it is an inserted window axis, the updates have no
  window axes, and the index vector lies along the ids' second axis). Update e then lands on segment i exactly when
  its id, read as a signed integer, is i; an id outside [0, N) is dropped. So the result at segment i is the operand
  there plus the sum of the updates whose signed id is i.

  Padding: lengthen the ids and the updates to n' ≥ n entries and the operand to N' ≥ N entries. If no entry past the
  first n carries the id i, the longer scatter read at i < N is the shorter one read at i.

  Everything is generic in the sizes.
-/
import Idealize.ShloMosaic.Lib.ValueIdx
import Idealize.ShloMosaic.PureOps.Ideal.Laws

noncomputable section

open scoped BigOperators

namespace Cert.LibSegSum

open Idealize.ShloMosaic Idealize.ShloMosaic.ValueIdx

/-- The window start of update e on the operand's one axis is e's id, read signed: the axis is the one the index
    vector's single component maps to, and the ids' entry read for e is (e, 0). -/
theorem start_eq {N n w : ℕ} (d : ScatterDims ⟨1, ![N]⟩ ⟨2, ![n, 1]⟩ ⟨1, ![n]⟩)
    (hsd : d.scatterDimsToOperandDims = [0]) (hiv : d.indexVectorDim = 1)
    (idx : IVec ⟨2, ![n, 1]⟩ w) (e : Fin n) (a : Fin 1) :
    d.start (ix1 e) idx a = (idx (ix2 e (0 : Fin 1))).toInt := by
  have ha0 : a = 0 := Subsingleton.elim _ _
  subst ha0
  have hm : (0 : Fin 1) ∈ d.scatterDimsToOperandDims := by rw [hsd]; exact List.mem_singleton.mpr rfl
  unfold ScatterDims.start
  rw [dif_pos hm]
  congr 2
  funext b
  match b with
  | ⟨0, _⟩ =>
    -- the ids' first axis is read at the update's own coordinate
    unfold ScatterDims.siIdx
    rw [dif_neg (by rw [hiv]; simp)]
    unfold ScatterDims.siCoord
    apply Fin.ext
    simp only [Fin.val_cast]
    have e' : ∀ X : Fin 1, ((ix1 e : (⟨1, ![n]⟩ : Shape).Idx) X).val = e.val := fun X => by
      have hX : X = 0 := Subsingleton.elim _ _
      subst hX; rfl
    exact e' _
  | ⟨1, _⟩ =>
    -- the ids' second axis is the index vector's: component 0
    unfold ScatterDims.siIdx
    rw [dif_pos (by rw [hiv])]
    apply Fin.ext
    show List.idxOf (0 : Fin 1) d.scatterDimsToOperandDims = 0
    rw [hsd]; simp

/-- The window coordinate on the operand's one axis is 0: that axis is an inserted one. -/
theorem window_eq {N n : ℕ} (d : ScatterDims ⟨1, ![N]⟩ ⟨2, ![n, 1]⟩ ⟨1, ![n]⟩)
    (hiw : d.insertedWindowDims = [0]) (e : Fin n) (a : Fin 1) :
    d.window (ix1 e) a = 0 := by
  have ha0 : a = 0 := Subsingleton.elim _ _
  subst ha0
  have hk : (0 : Fin 1) ∉ d.sKept := by
    show (0 : Fin 1) ∉ (List.finRange 1).filter (· ∉ d.insertedWindowDims)
    rw [hiw]; simp
  unfold ScatterDims.window
  rw [dif_neg hk]

/-- (1) Where update e of a rank-1 add-scatter lands: at segment i exactly when its id, read signed, is i. -/
theorem resultIdx?_eq_some_iff {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (idx : IVec ⟨2, ![n, 1]⟩ w) (e : Fin n) (i : Fin N) :
    d.resultIdx? (ix1 e) idx = some (ix1 i) ↔ (idx (ix2 e (0 : Fin 1))).toInt = (i.val : ℤ) := by
  have hs := start_eq d hsd hiv idx e
  have hw := window_eq d hiw e
  have hi := i.isLt
  unfold ScatterDims.resultIdx?
  constructor
  · intro h
    split at h
    · next hc =>
      -- inside on the one axis: the landing coordinate is the signed id, and it is i
      have hv : (d.start (ix1 e) idx 0 + (d.window (ix1 e) 0 : ℕ)).toNat = i.val :=
        congrArg Fin.val (congrFun (Option.some.inj h) 0)
      have h0 := (hc 0).1
      rw [hs 0, hw 0] at hv h0
      omega
    · exact absurd h (by simp)
  · intro h
    have hc : ∀ a, 0 ≤ d.start (ix1 e) idx a + (d.window (ix1 e) a : ℕ) ∧
        d.start (ix1 e) idx a + (d.window (ix1 e) a : ℕ) < ((⟨1, ![N]⟩ : Shape).size a : ℕ) := by
      intro a
      have ha0 : a = 0 := Subsingleton.elim _ _
      subst ha0
      rw [hs 0, hw 0, h]
      refine ⟨by omega, ?_⟩
      show (i.val : ℤ) + ((0 : ℕ) : ℤ) < (N : ℤ)
      omega
    rw [dif_pos hc]
    congr 1
    funext a
    have ha0 : a = 0 := Subsingleton.elim _ _
    subst ha0
    apply Fin.ext
    show (d.start (ix1 e) idx 0 + (d.window (ix1 e) 0 : ℕ)).toNat = i.val
    rw [hs 0, hw 0, h]
    omega

/-- (2) The segment sum read at a segment: the operand there plus the updates whose signed id is the segment. -/
theorem hostScatterAdd_apply {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal) (i : Fin N) :
    Ideal.hostScatterAdd d x idx upd (ix1 i)
      = x (ix1 i) + ∑ e ∈ Finset.univ.filter (fun e : Fin n => (idx (ix2 e (0 : Fin 1))).toInt = (i.val : ℤ)), upd (ix1 e) := by
  unfold Ideal.hostScatterAdd
  congr 1
  -- every rank-1 update index is ix1 of its coordinate: re-index the sum by that coordinate
  refine Finset.sum_bij' (fun j _ => j 0) (fun e _ => ix1 e) ?_ ?_ ?_ ?_ ?_
  · intro j hj
    have hj2 := (Finset.mem_filter.1 hj).2
    rw [eq_ix1 j] at hj2
    exact Finset.mem_filter.2 ⟨Finset.mem_univ _, (resultIdx?_eq_some_iff d huw hiw hsd hiv idx (j 0) i).1 hj2⟩
  · intro e he
    exact Finset.mem_filter.2 ⟨Finset.mem_univ _,
      (resultIdx?_eq_some_iff d huw hiw hsd hiv idx e i).2 (Finset.mem_filter.1 he).2⟩
  · intro j _
    exact (eq_ix1 j).symm
  · intro e _
    rfl
  · intro j _
    exact congrArg upd (eq_ix1 j)

/-- (3) A longer scatter into a longer operand, read at a segment i of the shorter one, is the shorter scatter there,
    when the operands agree at i, ids and updates agree on the first n entries, and no later entry carries the id i. -/
theorem hostScatterAdd_padded {N N' n n' w : ℕ} (hN : N ≤ N') (hn : n ≤ n')
    (dK : ScatterDims ⟨1, ![N']⟩ ⟨2, ![n', 1]⟩ ⟨1, ![n']⟩) (hK1 : dK.updateWindowDims = [])
    (hK2 : dK.insertedWindowDims = [0]) (hK3 : dK.scatterDimsToOperandDims = [0]) (hK4 : dK.indexVectorDim = 1)
    (dR : ScatterDims ⟨1, ![N]⟩ ⟨2, ![n, 1]⟩ ⟨1, ![n]⟩) (hR1 : dR.updateWindowDims = [])
    (hR2 : dR.insertedWindowDims = [0]) (hR3 : dR.scatterDimsToOperandDims = [0]) (hR4 : dR.indexVectorDim = 1)
    (xK : (⟨1, ![N']⟩ : Shape).Idx → EReal) (xR : (⟨1, ![N]⟩ : Shape).Idx → EReal)
    (idxK : IVec ⟨2, ![n', 1]⟩ w) (idxR : IVec ⟨2, ![n, 1]⟩ w)
    (uK : (⟨1, ![n']⟩ : Shape).Idx → EReal) (uR : (⟨1, ![n]⟩ : Shape).Idx → EReal) (i : Fin N)
    (hx : xK (ix1 (Fin.castLE hN i)) = xR (ix1 i))
    (hidx : ∀ e : Fin n, idxK (ix2 (Fin.castLE hn e) (0 : Fin 1)) = idxR (ix2 e (0 : Fin 1)))
    (hu : ∀ e : Fin n, uK (ix1 (Fin.castLE hn e)) = uR (ix1 e))
    (htail : ∀ e' : Fin n', n ≤ e'.val → (idxK (ix2 e' (0 : Fin 1))).toInt ≠ (i.val : ℤ)) :
    Ideal.hostScatterAdd dK xK idxK uK (ix1 (Fin.castLE hN i)) = Ideal.hostScatterAdd dR xR idxR uR (ix1 i) := by
  rw [hostScatterAdd_apply dK hK1 hK2 hK3 hK4 xK idxK uK (Fin.castLE hN i),
    hostScatterAdd_apply dR hR1 hR2 hR3 hR4 xR idxR uR i, hx]
  congr 1
  -- an entry of the longer column that carries the id i is one of the first n
  have hlt : ∀ e' : Fin n', (idxK (ix2 e' (0 : Fin 1))).toInt = (i.val : ℤ) → e'.val < n := fun e' he' =>
    Nat.lt_of_not_le fun hge => htail e' hge he'
  symm
  refine Finset.sum_bij' (fun e _ => Fin.castLE hn e)
    (fun e' he' => ⟨e'.val, hlt e' (Finset.mem_filter.1 he').2⟩) ?_ ?_ ?_ ?_ ?_
  · intro e he
    refine Finset.mem_filter.2 ⟨Finset.mem_univ _, ?_⟩
    rw [hidx e]
    exact (Finset.mem_filter.1 he).2
  · intro e' he'
    refine Finset.mem_filter.2 ⟨Finset.mem_univ _, ?_⟩
    have h := (Finset.mem_filter.1 he').2
    have hc : Fin.castLE hn ⟨e'.val, hlt e' h⟩ = e' := Fin.ext rfl
    rw [← hidx, hc]
    exact h
  · intro e _
    exact Fin.ext rfl
  · intro e' _
    exact Fin.ext rfl
  · intro e _
    exact (hu e).symm

end Cert.LibSegSum
-- ==== Proof.Bridge.lean ====
/-
  The kernel's result is the reference's, as terms of the arguments.

  Edge by edge: row `e` (below 1500000) of each padded feature array is row `e` of the gathered array, which is the
  reference's gathered stage; the weight windows' arrays are the row blocks of the first matrix and the bias vectors laid
  as rows; so the kernel's number for edge `e` is the reference's. Target by target: the kernel adds its 1503232 numbers
  into 200001 sums by the padded ids and keeps the first 200000; the padded entries all carry the id 200000, which is no
  kept target, so each kept sum is the reference's sum over the 1500000 edges. The counts likewise, with ones in place of
  the numbers. The mean is then the same function of the same sums and counts.
-/
import proofs.«141471_j79121887527504_1_alg».proof.Proof.BridgeEdge
import proofs.«141471_j79121887527504_1_alg».proof.Proof.KernelArray
import proofs.«141471_j79121887527504_1_alg».proof.Proof.KernelTail
import proofs.«141471_j79121887527504_1_alg».proof.Proof.KernelPadsA
import proofs.«141471_j79121887527504_1_alg».proof.Proof.KernelPadsB
import proofs.«141471_j79121887527504_1_alg».proof.Proof.KernelWeights
import proofs.«141471_j79121887527504_1_alg».proof.Proof.KernelGather
import proofs.«141471_j79121887527504_1_alg».proof.Proof.RefEdge
import proofs.«141471_j79121887527504_1_alg».proof.Proof.LibSegSum
import Idealize.ShloMosaic.Lib.KernelVsHost

set_option maxRecDepth 16384

noncomputable section

namespace Cert.Bridge

open Idealize.ShloMosaic Idealize.ShloMosaic.TcCoe Idealize.SL.Sem Cert.KernelIdeal Cert.KernelIdeal.Gen
open Idealize.ShloMosaic.ValueIdx
open Cert.KernelIdeal.KernelArray Cert.KernelIdeal.KernelTail Cert.KernelIdeal.KernelPadsA Cert.KernelIdeal.KernelPadsB
open Cert.KernelIdeal.KernelWeights Cert.KernelIdeal.KernelGather

variable (m : (ℓ : Loc nD τ sig) → Buf (Elt Ideal) ℓ)

/-- The padded segment sum in the host's spelling, at any sizes: a longer add-scatter into a longer operand, read at a
    segment of the shorter one, is the shorter scatter there, when the operands agree at that segment, ids and updates
    agree on the first entries, and no later entry carries that segment's id. -/
theorem host_scatterAdd_padded {N N' n n' w : ℕ} (hN : N ≤ N') (hn : n ≤ n')
    (dK : ScatterDims ⟨1, ![N']⟩ ⟨2, ![n', 1]⟩ ⟨1, ![n']⟩) (hK1 : dK.updateWindowDims = []) (hK2 : dK.insertedWindowDims = [0])
    (hK3 : dK.scatterDimsToOperandDims = [0]) (hK4 : dK.indexVectorDim = 1)
    (dR : ScatterDims ⟨1, ![N]⟩ ⟨2, ![n, 1]⟩ ⟨1, ![n]⟩) (hR1 : dR.updateWindowDims = []) (hR2 : dR.insertedWindowDims = [0])
    (hR3 : dR.scatterDimsToOperandDims = [0]) (hR4 : dR.indexVectorDim = 1)
    (xK : FVec Ideal ⟨1, ![N']⟩ .f32) (xR : FVec Ideal ⟨1, ![N]⟩ .f32) (idxK : IVec ⟨2, ![n', 1]⟩ w) (idxR : IVec ⟨2, ![n, 1]⟩ w)
    (uK : FVec Ideal ⟨1, ![n']⟩ .f32) (uR : FVec Ideal ⟨1, ![n]⟩ .f32) (i : Fin N)
    (hx : xK (ix1 (Fin.castLE hN i)) = xR (ix1 i))
    (hidx : ∀ e : Fin n, idxK (ix2 (Fin.castLE hn e) (0 : Fin 1)) = idxR (ix2 e (0 : Fin 1)))
    (hu : ∀ e : Fin n, uK (ix1 (Fin.castLE hn e)) = uR (ix1 e))
    (htail : ∀ e' : Fin n', n ≤ e'.val → (idxK (ix2 e' (0 : Fin 1))).toInt ≠ (i.val : ℤ)) :
    Host.scatterAdd (F := Ideal) dK xK idxK uK (ix1 (Fin.castLE hN i)) = Host.scatterAdd (F := Ideal) dR xR idxR uR (ix1 i) :=
  Cert.LibSegSum.hostScatterAdd_padded hN hn dK hK1 hK2 hK3 hK4 dR hR1 hR2 hR3 hR4 xK xR idxK idxR uK uR i hx hidx hu htail

/-- The signed reading of the word 200000. -/
theorem toInt_200000 : (200000#32 : BitVec 32).toInt = 200000 := by decide

/-- The reference's ids column at row `e` is the id of edge `e`. -/
theorem ref_ids (x4 : (⟨1, ![1500000]⟩ : Shape).Idx → BitVec 32) (e : Fin 1500000) :
    Cert.ReferenceIdeal.ReadP.val_main_v53 (F := Ideal) x4 (ix2 e (0 : Fin 1)) = x4 (ix1 e) := by
  rw [Cert.ReferenceIdeal.ReadP.val_main_v53_apply]
  exact congrArg x4 (funext fun a => by match a with | ⟨0, _⟩ => rfl)

/-- The kernel's ids column at row `e'` is the padded id of row `e'`. -/
theorem ker_ids (ids : IVec S1503232 32) (e' : Fin 1503232) :
    broadcastInDim S1503232x1 ![0] bcast_S1503232_S1503232x1_0 ids (ix2 e' (0 : Fin 1)) = ids (ix1 e') :=
  broadcastInDim_apply _ bcast_S1503232_S1503232x1_0 ids (ix2 e' (0 : Fin 1)) (ix1 e') (fun a => by
    match a with
    | ⟨0, _⟩ => show e'.val = if (1503232 : Nat) = 1 then 0 else e'.val; rw [if_neg (by decide)])

/-- A padded row's id is no kept target. -/
theorem tail_id (c : Dev nD) (i0 : Fin 200000) (e' : Fin 1503232) (h : 1500000 ≤ e'.val) :
    (broadcastInDim S1503232x1 ![0] bcast_S1503232_S1503232x1_0 (V m c main_v35) (ix2 e' (0 : Fin 1))).toInt ≠ (i0.val : ℤ) := by
  rw [ker_ids, ids_tail m c e' h, toInt_200000]
  have := i0.isLt
  omega

/-- The ids agree on the first 1500000 rows. -/
theorem ids_agree (c : Dev nD) (e : Fin 1500000) :
    broadcastInDim S1503232x1 ![0] bcast_S1503232_S1503232x1_0 (V m c main_v35) (ix2 (Fin.castLE (by omega : 1500000 ≤ 1503232) e) (0 : Fin 1))
      = Cert.ReferenceIdeal.ReadP.val_main_v53 (F := Ideal) (m ((c : Thread nD τ).loc main_arg4)) (ix2 e (0 : Fin 1)) := by
  rw [ker_ids, ids_row m c e, V_main_arg4 m c, ref_ids]

/-- THE SUMS: each kept target's sum in the kernel is the reference's. -/
theorem sums_eq (c : Dev nD) :
    sumsK (F := Ideal) (V m c main_v35) (G m c) = Cert.ReferenceIdeal.ReadP.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext i
  obtain ⟨i0, rfl⟩ : ∃ i0 : Fin 200000, i = ix1 i0 := ⟨i 0, eq_ix1 i⟩
  unfold sumsK Cert.ReferenceIdeal.ReadP.val_main_v54
  refine (extractStridedSlice_apply _ _ _ (ix1 i0) (ix1 (Fin.castLE (by omega : 200000 ≤ 200001) i0)) (fun a => by
    match a with
    | ⟨0, _⟩ => show i0.val = 0 + i0.val; omega)).trans ?_
  refine host_scatterAdd_padded (N := 200000) (N' := 200001) (n := 1500000) (n' := 1503232) (w := 32)
    (by omega) (by omega) scatter_S200001_S1503232x1_S1503232_n_0_0_1 rfl rfl rfl rfl
    Cert.ReferenceIdeal.scatter_S200000_S1500000x1_S1500000_n_0_0_1 rfl rfl rfl rfl
    _ _ _ _ _ _ i0 ?_ (ids_agree m c) ?_ (tail_id m c i0)
  · rw [Cert.ReferenceIdeal.ReadP.val_main_v52_apply, Cert.ReferenceIdeal.ReadP.val_main_cst_apply]
    exact broadcastInDim_apply _ bcast_S_S200001 _ _ ix0 (fun a => a.elim0)
  · intro e
    refine (shapeCast_apply (G m c) shapeCasts_S1503232x1_S1503232 (ix1 (Fin.castLE (by omega : 1500000 ≤ 1503232) e))
      (ix2 (Fin.castLE (by omega : 1500000 ≤ 1503232) e) (0 : Fin 1)) (by
        rewrite [Shape.rowMajor_val_two, Shape.rowMajor_val_one]
        show e.val * 1 + 0 = e.val
        omega)).trans ?_
    exact Cert.BridgeEdge.edge_eq m c e

/-- THE COUNTS: each kept target's count in the kernel is the reference's. -/
theorem counts_eq (c : Dev nD) :
    countsK (F := Ideal) (V m c main_v35) = Cert.ReferenceIdeal.ReadP.val_main_v58 (F := Ideal) (m ((c : Thread nD τ).loc main_arg4)) := by
  funext i
  obtain ⟨i0, rfl⟩ : ∃ i0 : Fin 200000, i = ix1 i0 := ⟨i 0, eq_ix1 i⟩
  unfold countsK Cert.ReferenceIdeal.ReadP.val_main_v58
  refine (extractStridedSlice_apply _ _ _ (ix1 i0) (ix1 (Fin.castLE (by omega : 200000 ≤ 200001) i0)) (fun a => by
    match a with
    | ⟨0, _⟩ => show i0.val = 0 + i0.val; omega)).trans ?_
  refine host_scatterAdd_padded (N := 200000) (N' := 200001) (n := 1500000) (n' := 1503232) (w := 32)
    (by omega) (by omega) scatter_S200001_S1503232x1_S1503232_n_0_0_1 rfl rfl rfl rfl
    Cert.ReferenceIdeal.scatter_S200000_S1500000x1_S1500000_n_0_0_1 rfl rfl rfl rfl
    _ _ _ _ _ _ i0 ?_ ?_ ?_ (tail_id m c i0)
  · rw [Cert.ReferenceIdeal.ReadP.val_main_v56_apply, Cert.ReferenceIdeal.ReadP.val_main_cst_8_apply]
    exact broadcastInDim_apply _ bcast_S_S200001 _ _ ix0 (fun a => a.elim0)
  · intro e
    rw [ker_ids, ids_row m c e, V_main_arg4 m c]
    exact (ref_ids _ e).symm
  · intro e
    rw [Cert.ReferenceIdeal.ReadP.val_main_v55_apply, Cert.ReferenceIdeal.ReadP.val_main_cst_7_apply]
    exact broadcastInDim_apply _ bcast_S_S1503232 _ _ ix0 (fun a => a.elim0)

/-- The mean is one function of sums and counts on both sides. -/
theorem mean_ref {F : FTy → Type} [FloatOps F] (x0 : (⟨Cert.ReferenceIdeal.S100000x4, .f32⟩ : BufTy).Contents (Elt F)) (x1 : (⟨Cert.ReferenceIdeal.S100000x64, .f32⟩ : BufTy).Contents (Elt F))
    (x2 : (⟨Cert.ReferenceIdeal.S100000x4, .f32⟩ : BufTy).Contents (Elt F)) (x3 : (⟨Cert.ReferenceIdeal.S200000x4, .f32⟩ : BufTy).Contents (Elt F))
    (x4 x5 : (⟨Cert.ReferenceIdeal.S1500000, .i32⟩ : BufTy).Contents (Elt F)) (x6 : (⟨Cert.ReferenceIdeal.S70x64, .f32⟩ : BufTy).Contents (Elt F))
    (x7 : (⟨Cert.ReferenceIdeal.S64, .f32⟩ : BufTy).Contents (Elt F)) (x8 : (⟨Cert.ReferenceIdeal.S64x64, .f32⟩ : BufTy).Contents (Elt F))
    (x9 : (⟨Cert.ReferenceIdeal.S64, .f32⟩ : BufTy).Contents (Elt F)) (x10 : (⟨Cert.ReferenceIdeal.S64x64, .f32⟩ : BufTy).Contents (Elt F))
    (x11 : (⟨Cert.ReferenceIdeal.S64, .f32⟩ : BufTy).Contents (Elt F)) (x12 : (⟨Cert.ReferenceIdeal.S64x1, .f32⟩ : BufTy).Contents (Elt F))
    (x13 : (⟨Cert.ReferenceIdeal.S1, .f32⟩ : BufTy).Contents (Elt F)) :
    meanOf (F := F) (Cert.ReferenceIdeal.ReadP.val_main_v54 (F := F) x0 x1 x2 x3 x4 x5 x6 x7 x8 x9 x10 x11 x12 x13) (Cert.ReferenceIdeal.ReadP.val_main_v58 (F := F) x4)
      = Cert.ReferenceIdeal.ReadP.val_main_v64 (F := F) x0 x1 x2 x3 x4 x5 x6 x7 x8 x9 x10 x11 x12 x13 := rfl

/-- THE RESULT: what the kernel's tail leaves is the reference's result stage at the kernel's arguments. -/
theorem result_eq (c : Dev nD) :
    meanOf (F := Ideal) (sumsK (F := Ideal) (V m c main_v35) (G m c)) (countsK (F := Ideal) (V m c main_v35))
      = Cert.ReferenceIdeal.ReadP.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [sums_eq m c, counts_eq m c]
  exact mean_ref _ _ _ _ _ _ _ _ _ _ _ _ _ _

end Cert.Bridge

end
-- ==== Proof.lean ====
/-
  The certificate: a per-edge four-layer perceptron followed by a mean per target, computed by a tiled kernel and by a
  plain reference.

  Both programs gather, for each of 1500000 edges, 64 latent features of the source point, the 3 coordinates of the
  target minus the source, and 3 direction components of the source. The reference joins them into one row of 70 and
  multiplies by the 70 × 64 first matrix; the kernel multiplies the three pieces by the matrix's three row blocks and adds
  the products, which is the same finite sum regrouped. Three more dense layers follow on both sides, with the same
  clipping at zero after the first two. The kernel works on blocks of 4096 edges, 367 of them, after padding the edges
  to 1503232 rows; a padded row's target id is 200000, one past the last target, so its number is added into an extra
  sum that is dropped, and each of the 200000 kept sums and counts is the reference's. The mean is then the same
  function of the same sums and counts. Changes of float format are the identity on the extended reals, and nothing here
  uses more of their arithmetic than that addition is commutative and associative, so the finiteness of the inputs is
  never needed.

  The three frames are the generated ones (the reference's is its run with the result dropped); the idealization changes
  nothing, so there is nothing to preserve.
-/
import proofs.«141471_j79121887527504_1_alg».proof.Defs
import proofs.«141471_j79121887527504_1_alg».proof.Proof.Gen.Kernel
import proofs.«141471_j79121887527504_1_alg».proof.Proof.Gen.Kernel.Skeleton
import proofs.«141471_j79121887527504_1_alg».proof.Proof.Gen.Kernel.Launch
import proofs.«141471_j79121887527504_1_alg».proof.Proof.Gen.Kernel.Points
import proofs.«141471_j79121887527504_1_alg».proof.Proof.Gen.Kernel.Frame
import proofs.«141471_j79121887527504_1_alg».proof.Proof.Gen.KernelIdeal
import proofs.«141471_j79121887527504_1_alg».proof.Proof.Gen.KernelIdeal.Skeleton
import proofs.«141471_j79121887527504_1_alg».proof.Proof.Gen.KernelIdeal.Launch
import proofs.«141471_j79121887527504_1_alg».proof.Proof.Gen.KernelIdeal.Points
import proofs.«141471_j79121887527504_1_alg».proof.Proof.Gen.KernelIdeal.Frame
import proofs.«141471_j79121887527504_1_alg».proof.Proof.Gen.ReferenceIdeal
import proofs.«141471_j79121887527504_1_alg».proof.Proof.Gen.Pre_finite_inputs
import proofs.«141471_j79121887527504_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- The kernel's run at the ideal instance: the result buffer ends at the reference's result stage read at the kernel's
    arguments, and the arguments end unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v59)
          = Cert.ReferenceIdeal.ReadP.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) :=
  (θ_run Cert.KernelIdeal.defs _ _).mono (fun r h c =>
    ⟨((h c).2 Cert.KernelIdeal.main_v59 (Pipeline.mem_restRefs_of Cert.KernelIdeal.main_v59 (by decide) (by decide))).trans
        ((Cert.KernelIdeal.KernelTail.tail_eq m (Cert.KernelIdeal.Gen.dats m) c).trans
          ((congrArg (fun a => Cert.KernelIdeal.KernelTail.meanOf (Cert.KernelIdeal.KernelTail.sumsK (Cert.KernelIdeal.Gen.V m c Cert.KernelIdeal.main_v35) a)
              (Cert.KernelIdeal.KernelTail.countsK (F := Ideal) (Cert.KernelIdeal.Gen.V m c Cert.KernelIdeal.main_v35)))
            (Cert.KernelIdeal.KernelArray.final13 m c)).trans (Cert.Bridge.result_eq m c))),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c),
      ((h c).2 Cert.KernelIdeal.main_arg5 (Pipeline.mem_restRefs_of Cert.KernelIdeal.main_arg5 (by decide) (by decide))).trans (Cert.KernelIdeal.Gen.W_main_arg5 m (Cert.KernelIdeal.Gen.dats m) c),
      ((h c).2 Cert.KernelIdeal.main_arg6 (Pipeline.mem_restRefs_of Cert.KernelIdeal.main_arg6 (by decide) (by decide))).trans (Cert.KernelIdeal.Gen.W_main_arg6 m (Cert.KernelIdeal.Gen.dats m) c),
      ((h c).2 Cert.KernelIdeal.main_arg7 (Pipeline.mem_restRefs_of Cert.KernelIdeal.main_arg7 (by decide) (by decide))).trans (Cert.KernelIdeal.Gen.W_main_arg7 m (Cert.KernelIdeal.Gen.dats m) c),
      ((h c).1 7).trans (((Cert.KernelIdeal.Gen.dats m 0 c).arrAt_in 7 rfl _).trans ((Cert.KernelIdeal.Gen.A_eq m c 7).trans (Cert.KernelIdeal.Gen.V_main_arg8 m c))),
      ((h c).2 Cert.KernelIdeal.main_arg9 (Pipeline.mem_restRefs_of Cert.KernelIdeal.main_arg9 (by decide) (by decide))).trans (Cert.KernelIdeal.Gen.W_main_arg9 m (Cert.KernelIdeal.Gen.dats m) c),
      ((h c).1 9).trans (((Cert.KernelIdeal.Gen.dats m 0 c).arrAt_in 9 rfl _).trans ((Cert.KernelIdeal.Gen.A_eq m c 9).trans (Cert.KernelIdeal.Gen.V_main_arg10 m c))),
      ((h c).2 Cert.KernelIdeal.main_arg11 (Pipeline.mem_restRefs_of Cert.KernelIdeal.main_arg11 (by decide) (by decide))).trans (Cert.KernelIdeal.Gen.W_main_arg11 m (Cert.KernelIdeal.Gen.dats m) c),
      ((h c).1 11).trans (((Cert.KernelIdeal.Gen.dats m 0 c).arrAt_in 11 rfl _).trans ((Cert.KernelIdeal.Gen.A_eq m c 11).trans (Cert.KernelIdeal.Gen.V_main_arg12 m c))),
      ((h c).2 Cert.KernelIdeal.main_arg13 (Pipeline.mem_restRefs_of Cert.KernelIdeal.main_arg13 (by decide) (by decide))).trans (Cert.KernelIdeal.Gen.W_main_arg13 m (Cert.KernelIdeal.Gen.dats m) c)⟩)
    (Cert.KernelIdeal.Gen.run_main m ρ)

/-- Run from memories that agree on the arguments, both programs end with the reference's result stage in their result
    buffers. -/
theorem algebraic : Cert.algebraic_KernelIdeal_ReferenceIdeal := by
  intro m ρ m' ρ' _ hagree
  refine ⟨fun c => Cert.ReferenceIdeal.ReadP.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), kernel_run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v64_eq]
  obtain ⟨h0, h1, h2, h3, h4, h5, h6, h7, h8, h9, h10, h11, h12, h13⟩ := hagree c
  rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
